-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x8192x128 : Shape := ⟨4, ![2, 16, 8192, 128]⟩
abbrev S32x128 : Shape := ⟨2, ![32, 128]⟩
abbrev S5x128x256 : Shape := ⟨3, ![5, 128, 256]⟩
abbrev S128x128 : Shape := ⟨2, ![128, 128]⟩
abbrev S_ : Shape := ⟨0, ![]⟩

class Facts : Prop where
  bcast_S_S2x16x8192x128 : S_.BroadcastsInDim S2x16x8192x128 (![] : Fin 0 → Fin S2x16x8192x128.rank)
  reducesTo_S2x16x8192x128_S_d0_1_2_3 : S2x16x8192x128.ReducesTo [0, 1, 2, 3] S_
  h_S_ : 0 < S_.numel
  bcast_S_S32x128 : S_.BroadcastsInDim S32x128 (![] : Fin 0 → Fin S32x128.rank)
  reducesTo_S32x128_S_d0_1 : S32x128.ReducesTo [0, 1] S_
  bcast_S_S5x128x256 : S_.BroadcastsInDim S5x128x256 (![] : Fin 0 → Fin S5x128x256.rank)
  reducesTo_S5x128x256_S_d0_1_2 : S5x128x256.ReducesTo [0, 1, 2] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S2x16x8192x128 .f32) (main_arg1 : FVec F S32x128 .f32) (main_arg2 : FVec F S5x128x256 .f32) (main_arg3 : FVec F S128x128 .f32) : IVec S_ 1 :=
  let main_v0 : FVec F S2x16x8192x128 .f32 := Host.absf main_arg0
  let main_cst : FVec F S_ .f32 := constant S_ .f32 0x7F800000#32
  let main_v1 : FVec F S2x16x8192x128 .f32 := broadcastInDim S2x16x8192x128 ![] bcast_S_S2x16x8192x128 main_cst
  let main_v2 : IVec S2x16x8192x128 1 := cmpf .olt main_v0 main_v1
  let main_c : IVec S_ 1 := constantI S_ 1 1#1
  let main_v3 : IVec S_ 1 := (fun x v => Host.reduce IntOp.andi x v reducesTo_S2x16x8192x128_S_d0_1_2_3 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S5x128x256 .f32 := Host.absf main_arg2
  let main_cst_2 : FVec F S_ .f32 := constant S_ .f32 0x7F800000#32
  let main_v10 : FVec F S5x128x256 .f32 := broadcastInDim S5x128x256 ![] bcast_S_S5x128x256 main_cst_2
  let main_v11 : IVec S5x128x256 1 := cmpf .olt main_v9 main_v10
  let main_c_3 : IVec S_ 1 := constantI S_ 1 1#1
  let main_v12 : IVec S_ 1 := (fun x v => Host.reduce IntOp.andi x v reducesTo_S5x128x256_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S2x16x8192x128 : Shape := ⟨4, ![2, 16, 8192, 128]⟩
abbrev S32x128 : Shape := ⟨2, ![32, 128]⟩
abbrev S5x128x256 : Shape := ⟨3, ![5, 128, 256]⟩
abbrev S128x128 : Shape := ⟨2, ![128, 128]⟩
abbrev S32x8192x128 : Shape := ⟨3, ![32, 8192, 128]⟩
abbrev S32x512x16x128 : Shape := ⟨4, ![32, 512, 16, 128]⟩
abbrev S5x256x128 : Shape := ⟨3, ![5, 256, 128]⟩
abbrev S32x512x128 : Shape := ⟨3, ![32, 512, 128]⟩
abbrev S1x512x16x128 : Shape := ⟨4, ![1, 512, 16, 128]⟩
abbrev S1x512x128 : Shape := ⟨3, ![1, 512, 128]⟩
abbrev S16x128 : Shape := ⟨2, ![16, 128]⟩
abbrev S1x511x16x128 : Shape := ⟨4, ![1, 511, 16, 128]⟩
abbrev S511x16x128 : Shape := ⟨3, ![511, 16, 128]⟩
abbrev S1x16x128 : Shape := ⟨3, ![1, 16, 128]⟩
abbrev S1022x16x128 : Shape := ⟨3, ![1022, 16, 128]⟩
abbrev S16352x128 : Shape := ⟨2, ![16352, 128]⟩
abbrev S8176x256 : Shape := ⟨2, ![8176, 256]⟩
abbrev S1x256x128 : Shape := ⟨3, ![1, 256, 128]⟩
abbrev S256x128 : Shape := ⟨2, ![256, 128]⟩
abbrev S8176x128 : Shape := ⟨2, ![8176, 128]⟩
abbrev S4088x256 : Shape := ⟨2, ![4088, 256]⟩
abbrev S4088x128 : Shape := ⟨2, ![4088, 128]⟩
abbrev S2044x256 : Shape := ⟨2, ![2044, 256]⟩
abbrev S2044x128 : Shape := ⟨2, ![2044, 128]⟩
abbrev S1022x256 : Shape := ⟨2, ![1022, 256]⟩
abbrev S1022x128 : Shape := ⟨2, ![1022, 128]⟩
abbrev S511x128 : Shape := ⟨2, ![511, 128]⟩
abbrev S511x256 : Shape := ⟨2, ![511, 256]⟩
abbrev S1x128 : Shape := ⟨2, ![1, 128]⟩
abbrev S512x128 : Shape := ⟨2, ![512, 128]⟩
abbrev S2x16x512x128 : Shape := ⟨4, ![2, 16, 512, 128]⟩

abbrev nBuf : Space → Nat
  | .hbm => 12
  | .vmem => 7
  | .smem => 0
  | _ => 0

abbrev bufTy : (tb : Table) → Fin (tcTables nBuf tb) → BufTy
  | .hbm, ⟨0, _⟩ => ⟨S2x16x8192x128, .f32⟩
  | .hbm, ⟨1, _⟩ => ⟨S32x128, .f32⟩
  | .hbm, ⟨2, _⟩ => ⟨S5x128x256, .f32⟩
  | .hbm, ⟨3, _⟩ => ⟨S128x128, .f32⟩
  | .hbm, ⟨4, _⟩ => ⟨S32x8192x128, .f32⟩
  | .hbm, ⟨5, _⟩ => ⟨S32x512x16x128, .f32⟩
  | .hbm, ⟨6, _⟩ => ⟨S5x256x128, .f32⟩
  | .hbm, ⟨7, _⟩ => ⟨S5x256x128, .bf16⟩
  | .hbm, ⟨8, _⟩ => ⟨S128x128, .f32⟩
  | .hbm, ⟨9, _⟩ => ⟨S128x128, .bf16⟩
  | .hbm, ⟨10, _⟩ => ⟨S32x512x128, .f32⟩
  | .hbm, ⟨11, _⟩ => ⟨S2x16x512x128, .f32⟩
  | .local _ .vmem, ⟨0, _⟩ => ⟨S1x512x16x128, .f32⟩
  | .local _ .vmem, ⟨1, _⟩ => ⟨S1x512x16x128, .f32⟩
  | .local _ .vmem, ⟨2, _⟩ => ⟨S32x128, .f32⟩
  | .local _ .vmem, ⟨3, _⟩ => ⟨S5x256x128, .bf16⟩
  | .local _ .vmem, ⟨4, _⟩ => ⟨S128x128, .bf16⟩
  | .local _ .vmem, ⟨5, _⟩ => ⟨S1x512x128, .f32⟩
  | .local _ .vmem, ⟨6, _⟩ => ⟨S1x512x128, .f32⟩
  | _, _ => ⟨S2x16x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2x16x8192x128_S32x8192x128 : S2x16x8192x128.ShapeCasts S32x8192x128
  shapeCasts_S32x8192x128_S32x512x16x128 : S32x8192x128.ShapeCasts S32x512x16x128
  transposes_S5x128x256_S5x256x128_0_2_1 : S5x128x256.Transposes [0, 2, 1] S5x256x128
  bitsLt_bf16_f32 : FTy.bits .bf16 < FTy.bits .f32
  transposes_S128x128_S128x128_1_0 : S128x128.Transposes [1, 0] S128x128
  inb_S32x128_S16x128_0_0 : ∀ a, (![0, 0] : Fin 2 → Nat) a + S16x128.size a ≤ S32x128.size a
  h_S16x128 : 0 < S16x128.numel
  inb_S32x128_S16x128_16_0 : ∀ a, (![16, 0] : Fin 2 → Nat) a + S16x128.size a ≤ S32x128.size a
  inb_S1x512x16x128_S1x511x16x128_0_0_0_0 : ∀ a, (![0, 0, 0, 0] : Fin 4 → Nat) a + S1x511x16x128.size a ≤ S1x512x16x128.size a
  h_S1x511x16x128 : 0 < S1x511x16x128.numel
  shapeCasts_S1x511x16x128_S511x16x128 : S1x511x16x128.ShapeCasts S511x16x128
  inb_S1x512x16x128_S1x511x16x128_0_1_0_0 : ∀ a, (![0, 1, 0, 0] : Fin 4 → Nat) a + S1x511x16x128.size a ≤ S1x512x16x128.size a
  shapeCasts_S16x128_S1x16x128 : S16x128.ShapeCasts S1x16x128
  broadcasts_S1x16x128_S511x16x128 : S1x16x128.Broadcasts S511x16x128
  concatenates_S511x16x128_S511x16x128_S1022x16x128_d0 : Shape.Concatenates [S511x16x128, S511x16x128] S1022x16x128 0
  shapeCasts_S1022x16x128_S16352x128 : S1022x16x128.ShapeCasts S16352x128
  shapeCasts_S16352x128_S8176x256 : S16352x128.ShapeCasts S8176x256
  inb_S5x256x128_S1x256x128_0_0_0 : ∀ a, (![0, 0, 0] : Fin 3 → Nat) a + S1x256x128.size a ≤ S5x256x128.size a
  h_S1x256x128 : 0 < S1x256x128.numel
  shapeCasts_S1x256x128_S256x128 : S1x256x128.ShapeCasts S256x128
  shapeCasts_S8176x128_S4088x256 : S8176x128.ShapeCasts S4088x256
  inb_S5x256x128_S1x256x128_1_0_0 : ∀ a, (![1, 0, 0] : Fin 3 → Nat) a + S1x256x128.size a ≤ S5x256x128.size a
  shapeCasts_S4088x128_S2044x256 : S4088x128.ShapeCasts S2044x256
  inb_S5x256x128_S1x256x128_2_0_0 : ∀ a, (![2, 0, 0] : Fin 3 → Nat) a + S1x256x128.size a ≤ S5x256x128.size a
  shapeCasts_S2044x128_S1022x256 : S2044x128.ShapeCasts S1022x256
  inb_S5x256x128_S1x256x128_3_0_0 : ∀ a, (![3, 0, 0] : Fin 3 → Nat) a + S1x256x128.size a ≤ S5x256x128.size a
  slices_S1022x128_o0_0_S511x128 : S1022x128.Slices ![0, 0] S511x128
  slices_S1022x128_o511_0_S511x128 : S1022x128.Slices ![511, 0] S511x128
  concatenates_S511x128_S511x128_S511x256_d1 : Shape.Concatenates [S511x128, S511x128] S511x256 1
  inb_S5x256x128_S1x256x128_4_0_0 : ∀ a, (![4, 0, 0] : Fin 3 → Nat) a + S1x256x128.size a ≤ S5x256x128.size a
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S1x128_S511x128_S512x128_d0 : Shape.Concatenates [S1x128, S511x128] S512x128 0
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  shapeCasts_S32x512x128_S2x16x512x128 : S32x512x128.ShapeCasts S2x16x512x128
  dot_S8176x256_S256x128_S8176x128_1_0_0_1_n_n_wf : DotDims.WF S8176x256 S256x128 S8176x128 [1] [0] [0] [1] [] []
  dot_S4088x256_S256x128_S4088x128_1_0_0_1_n_n_wf : DotDims.WF S4088x256 S256x128 S4088x128 [1] [0] [0] [1] [] []
  dot_S2044x256_S256x128_S2044x128_1_0_0_1_n_n_wf : DotDims.WF S2044x256 S256x128 S2044x128 [1] [0] [0] [1] [] []
  dot_S1022x256_S256x128_S1022x128_1_0_0_1_n_n_wf : DotDims.WF S1022x256 S256x128 S1022x128 [1] [0] [0] [1] [] []
  dot_S511x256_S256x128_S511x128_1_0_0_1_n_n_wf : DotDims.WF S511x256 S256x128 S511x128 [1] [0] [0] [1] [] []
  dot_S511x128_S128x128_S511x128_1_0_0_1_n_n_wf : DotDims.WF S511x128 S128x128 S511x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x16x128.size a ≤ S32x512x16x128.size a
  hwx0_0 : ∀ i : grid0.Coords, EltTy.bits .f32 = 32 ∨ (Rect.block (s := S32x512x16x128) S1x512x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x256x128.size a ≤ S5x256x128.size a
  hwx0_2 : ∀ i : grid0.Coords, EltTy.bits .bf16 = 32 ∨ (Rect.block (s := S5x256x128) S5x256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S32x512x128.size a
  hwx0_4 : ∀ i : grid0.Coords, EltTy.bits .f32 = 32 ∨ (Rect.block (s := S32x512x128) S1x512x128.size (cc0_transform_4 i) (hinb0_4 i)).WholeWords (EltTy.packing .f32)

variable [Facts₀]

def dot_S8176x256_S256x128_S8176x128_1_0_0_1_n_n : DotDims S8176x256 S256x128 S8176x128 where
  lhsContracting := [1]
  rhsContracting := [0]
  lhsNonContracting := [0]
  rhsNonContracting := [1]
  lhsBatch := []
  rhsBatch := []
  wf := dot_S8176x256_S256x128_S8176x128_1_0_0_1_n_n_wf
def dot_S4088x256_S256x128_S4088x128_1_0_0_1_n_n : DotDims S4088x256 S256x128 S4088x128 where
  lhsContracting := [1]
  rhsContracting := [0]
  lhsNonContracting := [0]
  rhsNonContracting := [1]
  lhsBatch := []
  rhsBatch := []
  wf := dot_S4088x256_S256x128_S4088x128_1_0_0_1_n_n_wf
def dot_S2044x256_S256x128_S2044x128_1_0_0_1_n_n : DotDims S2044x256 S256x128 S2044x128 where
  lhsContracting := [1]
  rhsContracting := [0]
  lhsNonContracting := [0]
  rhsNonContracting := [1]
  lhsBatch := []
  rhsBatch := []
  wf := dot_S2044x256_S256x128_S2044x128_1_0_0_1_n_n_wf
def dot_S1022x256_S256x128_S1022x128_1_0_0_1_n_n : DotDims S1022x256 S256x128 S1022x128 where
  lhsContracting := [1]
  rhsContracting := [0]
  lhsNonContracting := [0]
  rhsNonContracting := [1]
  lhsBatch := []
  rhsBatch := []
  wf := dot_S1022x256_S256x128_S1022x128_1_0_0_1_n_n_wf
def dot_S511x256_S256x128_S511x128_1_0_0_1_n_n : DotDims S511x256 S256x128 S511x128 where
  lhsContracting := [1]
  rhsContracting := [0]
  lhsNonContracting := [0]
  rhsNonContracting := [1]
  lhsBatch := []
  rhsBatch := []
  wf := dot_S511x256_S256x128_S511x128_1_0_0_1_n_n_wf
def dot_S511x128_S128x128_S511x128_1_0_0_1_n_n : DotDims S511x128 S128x128 S511x128 where
  lhsContracting := [1]
  rhsContracting := [0]
  lhsNonContracting := [0]
  rhsNonContracting := [1]
  lhsBatch := []
  rhsBatch := []
  wf := dot_S511x128_S128x128_S511x128_1_0_0_1_n_n_wf

abbrev win0_0 : Pipeline.Window sig grid0 :=
  Pipeline.Window.ofSpec (Memref.whole main_v1) S1x512x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5x256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x8192x128 : Shape := ⟨4, ![2, 16, 8192, 128]⟩
abbrev S32x128 : Shape := ⟨2, ![32, 128]⟩
abbrev S5x128x256 : Shape := ⟨3, ![5, 128, 256]⟩
abbrev S128x128 : Shape := ⟨2, ![128, 128]⟩
abbrev S511 : Shape := ⟨1, ![511]⟩
abbrev S511x1 : Shape := ⟨2, ![511, 1]⟩
abbrev S_ : Shape := ⟨0, ![]⟩
abbrev S32 : Shape := ⟨1, ![32]⟩
abbrev S1x32 : Shape := ⟨2, ![1, 32]⟩
abbrev S511x32 : Shape := ⟨2, ![511, 32]⟩
abbrev S511x32x1 : Shape := ⟨3, ![511, 32, 1]⟩
abbrev S2x16x511x32x128 : Shape := ⟨5, ![2, 16, 511, 32, 128]⟩
abbrev S1x1x1x32x128 : Shape := ⟨5, ![1, 1, 1, 32, 128]⟩
abbrev S2x16x1x32x128 : Shape := ⟨5, ![2, 16, 1, 32, 128]⟩
abbrev S2x16x512x32x128 : Shape := ⟨5, ![2, 16, 512, 32, 128]⟩
abbrev S2x16x512x16x256 : Shape := ⟨5, ![2, 16, 512, 16, 256]⟩
abbrev S1x128x256 : Shape := ⟨3, ![1, 128, 256]⟩
abbrev S128x256 : Shape := ⟨2, ![128, 256]⟩
abbrev S2x16x512x16x128 : Shape := ⟨5, ![2, 16, 512, 16, 128]⟩
abbrev S2x16x512x8x256 : Shape := ⟨5, ![2, 16, 512, 8, 256]⟩
abbrev S2x16x512x8x128 : Shape := ⟨5, ![2, 16, 512, 8, 128]⟩
abbrev S2x16x512x4x256 : Shape := ⟨5, ![2, 16, 512, 4, 256]⟩
abbrev S2x16x512x4x128 : Shape := ⟨5, ![2, 16, 512, 4, 128]⟩
abbrev S2x16x512x2x256 : Shape := ⟨5, ![2, 16, 512, 2, 256]⟩
abbrev S2x16x512x2x128 : Shape := ⟨5, ![2, 16, 512, 2, 128]⟩
abbrev S2x16x512x1x256 : Shape := ⟨5, ![2, 16, 512, 1, 256]⟩
abbrev S2x16x512x1x128 : Shape := ⟨5, ![2, 16, 512, 1, 128]⟩
abbrev S2x16x512x128 : Shape := ⟨4, ![2, 16, 512, 128]⟩

abbrev nBuf : Space → Nat
  | .hbm => 97
  | .vmem => 0
  | .smem => 0
  | _ => 0

abbrev bufTy : (tb : Table) → Fin (tcTables nBuf tb) → BufTy
  | .hbm, ⟨0, _⟩ => ⟨S2x16x8192x128, .f32⟩
  | .hbm, ⟨1, _⟩ => ⟨S32x128, .f32⟩
  | .hbm, ⟨2, _⟩ => ⟨S5x128x256, .f32⟩
  | .hbm, ⟨3, _⟩ => ⟨S128x128, .f32⟩
  | .hbm, ⟨4, _⟩ => ⟨S511, .i32⟩
  | .hbm, ⟨5, _⟩ => ⟨S511x1, .i32⟩
  | .hbm, ⟨6, _⟩ => ⟨S_, .i32⟩
  | .hbm, ⟨7, _⟩ => ⟨S511x1, .i32⟩
  | .hbm, ⟨8, _⟩ => ⟨S511x1, .i32⟩
  | .hbm, ⟨9, _⟩ => ⟨S32, .i32⟩
  | .hbm, ⟨10, _⟩ => ⟨S1x32, .i32⟩
  | .hbm, ⟨11, _⟩ => ⟨S511x32, .i32⟩
  | .hbm, ⟨12, _⟩ => ⟨S511x32, .i32⟩
  | .hbm, ⟨13, _⟩ => ⟨S511x32, .i32⟩
  | .hbm, ⟨14, _⟩ => ⟨S_, .i32⟩
  | .hbm, ⟨15, _⟩ => ⟨S511x32, .i32⟩
  | .hbm, ⟨16, _⟩ => ⟨S511x32, .i1⟩
  | .hbm, ⟨17, _⟩ => ⟨S_, .i32⟩
  | .hbm, ⟨18, _⟩ => ⟨S511x32, .i32⟩
  | .hbm, ⟨19, _⟩ => ⟨S511x32, .i32⟩
  | .hbm, ⟨20, _⟩ => ⟨S511x32, .i32⟩
  | .hbm, ⟨21, _⟩ => ⟨S511x32x1, .i32⟩
  | .hbm, ⟨22, _⟩ => ⟨S2x16x511x32x128, .f32⟩
  | .hbm, ⟨23, _⟩ => ⟨S1x1x1x32x128, .f32⟩
  | .hbm, ⟨24, _⟩ => ⟨S2x16x511x32x128, .f32⟩
  | .hbm, ⟨25, _⟩ => ⟨S2x16x511x32x128, .f32⟩
  | .hbm, ⟨26, _⟩ => ⟨S2x16x1x32x128, .f32⟩
  | .hbm, ⟨27, _⟩ => ⟨S_, .f32⟩
  | .hbm, ⟨28, _⟩ => ⟨S2x16x1x32x128, .f32⟩
  | .hbm, ⟨29, _⟩ => ⟨S2x16x512x32x128, .f32⟩
  | .hbm, ⟨30, _⟩ => ⟨S2x16x512x16x256, .f32⟩
  | .hbm, ⟨31, _⟩ => ⟨S1x128x256, .f32⟩
  | .hbm, ⟨32, _⟩ => ⟨S128x256, .f32⟩
  | .hbm, ⟨33, _⟩ => ⟨S2x16x512x16x128, .f32⟩
  | .hbm, ⟨34, _⟩ => ⟨S2x16x512x16x128, .f32⟩
  | .hbm, ⟨35, _⟩ => ⟨S2x16x512x16x128, .f32⟩
  | .hbm, ⟨36, _⟩ => ⟨S_, .f32⟩
  | .hbm, ⟨37, _⟩ => ⟨S2x16x512x16x128, .f32⟩
  | .hbm, ⟨38, _⟩ => ⟨S2x16x512x16x128, .f32⟩
  | .hbm, ⟨39, _⟩ => ⟨S_, .f32⟩
  | .hbm, ⟨40, _⟩ => ⟨S2x16x512x16x128, .f32⟩
  | .hbm, ⟨41, _⟩ => ⟨S2x16x512x16x128, .f32⟩
  | .hbm, ⟨42, _⟩ => ⟨S2x16x512x16x128, .f32⟩
  | .hbm, ⟨43, _⟩ => ⟨S2x16x512x8x256, .f32⟩
  | .hbm, ⟨44, _⟩ => ⟨S1x128x256, .f32⟩
  | .hbm, ⟨45, _⟩ => ⟨S128x256, .f32⟩
  | .hbm, ⟨46, _⟩ => ⟨S2x16x512x8x128, .f32⟩
  | .hbm, ⟨47, _⟩ => ⟨S2x16x512x8x128, .f32⟩
  | .hbm, ⟨48, _⟩ => ⟨S2x16x512x8x128, .f32⟩
  | .hbm, ⟨49, _⟩ => ⟨S_, .f32⟩
  | .hbm, ⟨50, _⟩ => ⟨S2x16x512x8x128, .f32⟩
  | .hbm, ⟨51, _⟩ => ⟨S2x16x512x8x128, .f32⟩
  | .hbm, ⟨52, _⟩ => ⟨S_, .f32⟩
  | .hbm, ⟨53, _⟩ => ⟨S2x16x512x8x128, .f32⟩
  | .hbm, ⟨54, _⟩ => ⟨S2x16x512x8x128, .f32⟩
  | .hbm, ⟨55, _⟩ => ⟨S2x16x512x8x128, .f32⟩
  | .hbm, ⟨56, _⟩ => ⟨S2x16x512x4x256, .f32⟩
  | .hbm, ⟨57, _⟩ => ⟨S1x128x256, .f32⟩
  | .hbm, ⟨58, _⟩ => ⟨S128x256, .f32⟩
  | .hbm, ⟨59, _⟩ => ⟨S2x16x512x4x128, .f32⟩
  | .hbm, ⟨60, _⟩ => ⟨S2x16x512x4x128, .f32⟩
  | .hbm, ⟨61, _⟩ => ⟨S2x16x512x4x128, .f32⟩
  | .hbm, ⟨62, _⟩ => ⟨S_, .f32⟩
  | .hbm, ⟨63, _⟩ => ⟨S2x16x512x4x128, .f32⟩
  | .hbm, ⟨64, _⟩ => ⟨S2x16x512x4x128, .f32⟩
  | .hbm, ⟨65, _⟩ => ⟨S_, .f32⟩
  | .hbm, ⟨66, _⟩ => ⟨S2x16x512x4x128, .f32⟩
  | .hbm, ⟨67, _⟩ => ⟨S2x16x512x4x128, .f32⟩
  | .hbm, ⟨68, _⟩ => ⟨S2x16x512x4x128, .f32⟩
  | .hbm, ⟨69, _⟩ => ⟨S2x16x512x2x256, .f32⟩
  | .hbm, ⟨70, _⟩ => ⟨S1x128x256, .f32⟩
  | .hbm, ⟨71, _⟩ => ⟨S128x256, .f32⟩
  | .hbm, ⟨72, _⟩ => ⟨S2x16x512x2x128, .f32⟩
  | .hbm, ⟨73, _⟩ => ⟨S2x16x512x2x128, .f32⟩
  | .hbm, ⟨74, _⟩ => ⟨S2x16x512x2x128, .f32⟩
  | .hbm, ⟨75, _⟩ => ⟨S_, .f32⟩
  | .hbm, ⟨76, _⟩ => ⟨S2x16x512x2x128, .f32⟩
  | .hbm, ⟨77, _⟩ => ⟨S2x16x512x2x128, .f32⟩
  | .hbm, ⟨78, _⟩ => ⟨S_, .f32⟩
  | .hbm, ⟨79, _⟩ => ⟨S2x16x512x2x128, .f32⟩
  | .hbm, ⟨80, _⟩ => ⟨S2x16x512x2x128, .f32⟩
  | .hbm, ⟨81, _⟩ => ⟨S2x16x512x2x128, .f32⟩
  | .hbm, ⟨82, _⟩ => ⟨S2x16x512x1x256, .f32⟩
  | .hbm, ⟨83, _⟩ => ⟨S1x128x256, .f32⟩
  | .hbm, ⟨84, _⟩ => ⟨S128x256, .f32⟩
  | .hbm, ⟨85, _⟩ => ⟨S2x16x512x1x128, .f32⟩
  | .hbm, ⟨86, _⟩ => ⟨S2x16x512x1x128, .f32⟩
  | .hbm, ⟨87, _⟩ => ⟨S2x16x512x1x128, .f32⟩
  | .hbm, ⟨88, _⟩ => ⟨S_, .f32⟩
  | .hbm, ⟨89, _⟩ => ⟨S2x16x512x1x128, .f32⟩
  | .hbm, ⟨90, _⟩ => ⟨S2x16x512x1x128, .f32⟩
  | .hbm, ⟨91, _⟩ => ⟨S_, .f32⟩
  | .hbm, ⟨92, _⟩ => ⟨S2x16x512x1x128, .f32⟩
  | .hbm, ⟨93, _⟩ => ⟨S2x16x512x1x128, .f32⟩
  | .hbm, ⟨94, _⟩ => ⟨S2x16x512x1x128, .f32⟩
  | .hbm, ⟨95, _⟩ => ⟨S2x16x512x1x128, .f32⟩
  | .hbm, ⟨96, _⟩ => ⟨S2x16x512x128, .f32⟩
  | _, _ => ⟨S2x16x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call2_v0 : Ref sig .tc := ⟨.hbm, 60, rfl⟩
abbrev main_call2_v1 : Ref sig .tc := ⟨.hbm, 61, rfl⟩
abbrev main_call2_cst : Ref sig .tc := ⟨.hbm, 62, rfl⟩
abbrev main_call2_v2 : Ref sig .tc := ⟨.hbm, 63, rfl⟩
abbrev main_call2_v3 : Ref sig .tc := ⟨.hbm, 64, rfl⟩
abbrev main_call2_cst_0 : Ref sig .tc := ⟨.hbm, 65, rfl⟩
abbrev main_call2_v4 : Ref sig .tc := ⟨.hbm, 66, rfl⟩
abbrev main_call2_v5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_call3_v0 : Ref sig .tc := ⟨.hbm, 73, rfl⟩
abbrev main_call3_v1 : Ref sig .tc := ⟨.hbm, 74, rfl⟩
abbrev main_call3_cst : Ref sig .tc := ⟨.hbm, 75, rfl⟩
abbrev main_call3_v2 : Ref sig .tc := ⟨.hbm, 76, rfl⟩
abbrev main_call3_v3 : Ref sig .tc := ⟨.hbm, 77, rfl⟩
abbrev main_call3_cst_0 : Ref sig .tc := ⟨.hbm, 78, rfl⟩
abbrev main_call3_v4 : Ref sig .tc := ⟨.hbm, 79, rfl⟩
abbrev main_call3_v5 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_call4_v0 : Ref sig .tc := ⟨.hbm, 86, rfl⟩
abbrev main_call4_v1 : Ref sig .tc := ⟨.hbm, 87, rfl⟩
abbrev main_call4_cst : Ref sig .tc := ⟨.hbm, 88, rfl⟩
abbrev main_call4_v2 : Ref sig .tc := ⟨.hbm, 89, rfl⟩
abbrev main_call4_v3 : Ref sig .tc := ⟨.hbm, 90, rfl⟩
abbrev main_call4_cst_0 : Ref sig .tc := ⟨.hbm, 91, rfl⟩
abbrev main_call4_v4 : Ref sig .tc := ⟨.hbm, 92, rfl⟩
abbrev main_call4_v5 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩

abbrev nD : Nat := 1
abbrev τ : Topo := Topo.v7x

variable {F : FTy → Type} [FloatOps F]

class Facts₀ : Prop where
  bcast_S511_S511x1_0 : S511.BroadcastsInDim S511x1 (![0] : Fin 1 → Fin S511x1.rank)
  bcast_S_S511x1 : S_.BroadcastsInDim S511x1 (![] : Fin 0 → Fin S511x1.rank)
  bcast_S32_S1x32_1 : S32.BroadcastsInDim S1x32 (![1] : Fin 1 → Fin S1x32.rank)
  bcast_S511x1_S511x32_0_1 : S511x1.BroadcastsInDim S511x32 (![0, 1] : Fin 2 → Fin S511x32.rank)
  bcast_S1x32_S511x32_0_1 : S1x32.BroadcastsInDim S511x32 (![0, 1] : Fin 2 → Fin S511x32.rank)
  bcast_S_S511x32 : S_.BroadcastsInDim S511x32 (![] : Fin 0 → Fin S511x32.rank)
  bcast_S511x32_S511x32x1_0_1 : S511x32.BroadcastsInDim S511x32x1 (![0, 1] : Fin 2 → Fin S511x32x1.rank)
  bcast_S32x128_S1x1x1x32x128_3_4 : S32x128.BroadcastsInDim S1x1x1x32x128 (![3, 4] : Fin 2 → Fin S1x1x1x32x128.rank)
  bcast_S1x1x1x32x128_S2x16x511x32x128_0_1_2_3_4 : S1x1x1x32x128.BroadcastsInDim S2x16x511x32x128 (![0, 1, 2, 3, 4] : Fin 5 → Fin S2x16x511x32x128.rank)
  slices_S2x16x511x32x128_S2x16x1x32x128_0_0_0_0_0 : S2x16x511x32x128.Slices ![0, 0, 0, 0, 0] S2x16x1x32x128
  bcast_S_S2x16x1x32x128 : S_.BroadcastsInDim S2x16x1x32x128 (![] : Fin 0 → Fin S2x16x1x32x128.rank)
  concatenates_S2x16x1x32x128_S2x16x511x32x128_S2x16x512x32x128_d2 : Shape.Concatenates [S2x16x1x32x128, S2x16x511x32x128] S2x16x512x32x128 2
  shapeCasts_S2x16x512x32x128_S2x16x512x16x256 : S2x16x512x32x128.ShapeCasts S2x16x512x16x256
  slices_S5x128x256_S1x128x256_0_0_0 : S5x128x256.Slices ![0, 0, 0] S1x128x256
  shapeCasts_S1x128x256_S128x256 : S1x128x256.ShapeCasts S128x256
  bcast_S_S2x16x512x16x128 : S_.BroadcastsInDim S2x16x512x16x128 (![] : Fin 0 → Fin S2x16x512x16x128.rank)
  shapeCasts_S2x16x512x16x128_S2x16x512x8x256 : S2x16x512x16x128.ShapeCasts S2x16x512x8x256
  slices_S5x128x256_S1x128x256_1_0_0 : S5x128x256.Slices ![1, 0, 0] S1x128x256
  bcast_S_S2x16x512x8x128 : S_.BroadcastsInDim S2x16x512x8x128 (![] : Fin 0 → Fin S2x16x512x8x128.rank)
  shapeCasts_S2x16x512x8x128_S2x16x512x4x256 : S2x16x512x8x128.ShapeCasts S2x16x512x4x256
  slices_S5x128x256_S1x128x256_2_0_0 : S5x128x256.Slices ![2, 0, 0] S1x128x256
  bcast_S_S2x16x512x4x128 : S_.BroadcastsInDim S2x16x512x4x128 (![] : Fin 0 → Fin S2x16x512x4x128.rank)
  shapeCasts_S2x16x512x4x128_S2x16x512x2x256 : S2x16x512x4x128.ShapeCasts S2x16x512x2x256
  slices_S5x128x256_S1x128x256_3_0_0 : S5x128x256.Slices ![3, 0, 0] S1x128x256
  bcast_S_S2x16x512x2x128 : S_.BroadcastsInDim S2x16x512x2x128 (![] : Fin 0 → Fin S2x16x512x2x128.rank)
  shapeCasts_S2x16x512x2x128_S2x16x512x1x256 : S2x16x512x2x128.ShapeCasts S2x16x512x1x256
  slices_S5x128x256_S1x128x256_4_0_0 : S5x128x256.Slices ![4, 0, 0] S1x128x256
  bcast_S_S2x16x512x1x128 : S_.BroadcastsInDim S2x16x512x1x128 (![] : Fin 0 → Fin S2x16x512x1x128.rank)
  shapeCasts_S2x16x512x1x128_S2x16x512x128 : S2x16x512x1x128.ShapeCasts S2x16x512x128
  gather_S2x16x8192x128_S511x32x1_S2x16x511x32x128_014_2_n_n_2_2_2161128_wf : GatherDims.WF S2x16x8192x128 S511x32x1 S2x16x511x32x128 [0, 1, 4] [2] [] [2] [] 2 ![2, 16, 1, 128]
  dot_S2x16x512x16x256_S128x256_S2x16x512x16x128_4_1_0123_0_n_n_wf : DotDims.WF S2x16x512x16x256 S128x256 S2x16x512x16x128 [4] [1] [0, 1, 2, 3] [0] [] []
  dot_S2x16x512x8x256_S128x256_S2x16x512x8x128_4_1_0123_0_n_n_wf : DotDims.WF S2x16x512x8x256 S128x256 S2x16x512x8x128 [4] [1] [0, 1, 2, 3] [0] [] []
  dot_S2x16x512x4x256_S128x256_S2x16x512x4x128_4_1_0123_0_n_n_wf : DotDims.WF S2x16x512x4x256 S128x256 S2x16x512x4x128 [4] [1] [0, 1, 2, 3] [0] [] []
  dot_S2x16x512x2x256_S128x256_S2x16x512x2x128_4_1_0123_0_n_n_wf : DotDims.WF S2x16x512x2x256 S128x256 S2x16x512x2x128 [4] [1] [0, 1, 2, 3] [0] [] []
  dot_S2x16x512x1x256_S128x256_S2x16x512x1x128_4_1_0123_0_n_n_wf : DotDims.WF S2x16x512x1x256 S128x256 S2x16x512x1x128 [4] [1] [0, 1, 2, 3] [0] [] []
  dot_S2x16x512x1x128_S128x128_S2x16x512x1x128_4_1_0123_0_n_n_wf : DotDims.WF S2x16x512x1x128 S128x128 S2x16x512x1x128 [4] [1] [0, 1, 2, 3] [0] [] []

variable [Facts₀]

def gather_S2x16x8192x128_S511x32x1_S2x16x511x32x128_014_2_n_n_2_2_2161128 : GatherDims S2x16x8192x128 S511x32x1 S2x16x511x32x128 where
  offsetDims := [0, 1, 4]
  collapsedSliceDims := [2]
  operandBatchingDims := []
  startIndicesBatchingDims := []
  startIndexMap := [2]
  indexVectorDim := 2
  sliceSizes := ![2, 16, 1, 128]
  wf := gather_S2x16x8192x128_S511x32x1_S2x16x511x32x128_014_2_n_n_2_2_2161128_wf
def dot_S2x16x512x16x256_S128x256_S2x16x512x16x128_4_1_0123_0_n_n : DotDims S2x16x512x16x256 S128x256 S2x16x512x16x128 where
  lhsContracting := [4]
  rhsContracting := [1]
  lhsNonContracting := [0, 1, 2, 3]
  rhsNonContracting := [0]
  lhsBatch := []
  rhsBatch := []
  wf := dot_S2x16x512x16x256_S128x256_S2x16x512x16x128_4_1_0123_0_n_n_wf
def dot_S2x16x512x8x256_S128x256_S2x16x512x8x128_4_1_0123_0_n_n : DotDims S2x16x512x8x256 S128x256 S2x16x512x8x128 where
  lhsContracting := [4]
  rhsContracting := [1]
  lhsNonContracting := [0, 1, 2, 3]
  rhsNonContracting := [0]
  lhsBatch := []
  rhsBatch := []
  wf := dot_S2x16x512x8x256_S128x256_S2x16x512x8x128_4_1_0123_0_n_n_wf
def dot_S2x16x512x4x256_S128x256_S2x16x512x4x128_4_1_0123_0_n_n : DotDims S2x16x512x4x256 S128x256 S2x16x512x4x128 where
  lhsContracting := [4]
  rhsContracting := [1]
  lhsNonContracting := [0, 1, 2, 3]
  rhsNonContracting := [0]
  lhsBatch := []
  rhsBatch := []
  wf := dot_S2x16x512x4x256_S128x256_S2x16x512x4x128_4_1_0123_0_n_n_wf
def dot_S2x16x512x2x256_S128x256_S2x16x512x2x128_4_1_0123_0_n_n : DotDims S2x16x512x2x256 S128x256 S2x16x512x2x128 where
  lhsContracting := [4]
  rhsContracting := [1]
  lhsNonContracting := [0, 1, 2, 3]
  rhsNonContracting := [0]
  lhsBatch := []
  rhsBatch := []
  wf := dot_S2x16x512x2x256_S128x256_S2x16x512x2x128_4_1_0123_0_n_n_wf
def dot_S2x16x512x1x256_S128x256_S2x16x512x1x128_4_1_0123_0_n_n : DotDims S2x16x512x1x256 S128x256 S2x16x512x1x128 where
  lhsContracting := [4]
  rhsContracting := [1]
  lhsNonContracting := [0, 1, 2, 3]
  rhsNonContracting := [0]
  lhsBatch := []
  rhsBatch := []
  wf := dot_S2x16x512x1x256_S128x256_S2x16x512x1x128_4_1_0123_0_n_n_wf
def dot_S2x16x512x1x128_S128x128_S2x16x512x1x128_4_1_0123_0_n_n : DotDims S2x16x512x1x128 S128x128 S2x16x512x1x128 where
  lhsContracting := [4]
  rhsContracting := [1]
  lhsNonContracting := [0, 1, 2, 3]
  rhsNonContracting := [0]
  lhsBatch := []
  rhsBatch := []
  wf := dot_S2x16x512x1x128_S128x128_S2x16x512x1x128_4_1_0123_0_n_n_wf

class Facts : Prop extends Facts₀ where

variable [Facts]
-- ==== Proof.Merge.lean ====
/-
  The mathematics both programs share, over the extended reals and independent of either program's layout.

  A window is 32 rows of 128 lanes. One MERGE STAGE halves the number of rows: rows 2r and 2r+1 are laid side by
  side as one vector of 256 entries, multiplied into a 256 × 128 weight matrix, and passed through
  silu y = y · 1/(1 + e^(-y)). Five stages take a window to a single row, which a last 128 × 128 matrix projects.
  Rows are indexed by natural numbers so that a stage can be applied to any stack of rows: row r of the result
  depends on rows 2r and 2r+1 of the operand and on nothing else (`stage_congr`), and a stage commutes with
  shifting the stack (`shift_stage`: the rows from A on of the result are the stage of the rows from 2A on).
  Hence four stages applied to a long stack of 16-row groups compute, at row A, the four stages of group A alone
  (`S4_block`), however the groups are arranged in the stack.
-/
import Idealize.ShloMosaic.PureOps.Ideal
import Idealize.ShloMosaic.Lib.ValueIdx

noncomputable section

namespace Cert.Merge

open Idealize.ShloMosaic Idealize.ShloMosaic.ValueIdx

/-- silu y = y · logistic y, the logistic function being 1/(1 + e^(-y)) with its limits at the infinities. -/
def silu (y : EReal) : EReal := y * Ideal.logistic y

theorem silu_zero : silu 0 = 0 := zero_mul _

/-- Entry c of a 256-vector made of two rows side by side lies in lane c mod 128 (of row c / 128). -/
abbrev lane (c : Fin 256) : Fin 128 := ⟨c.val % 128, Nat.mod_lt _ (by decide)⟩

/-- One merge stage: row r is silu of the product of rows 2r, 2r+1 side by side with the weights. -/
def stage (W : Fin 256 → Fin 128 → EReal) (x : ℕ → Fin 128 → EReal) : ℕ → Fin 128 → EReal :=
  fun r o => silu (∑ c : Fin 256, x (2 * r + c.val / 128) (lane c) * W c o)

/-- The rows of a stack from row A on. -/
def shiftRows (A : ℕ) (x : ℕ → Fin 128 → EReal) : ℕ → Fin 128 → EReal := fun r => x (A + r)

theorem shiftRows_apply (A : ℕ) (x : ℕ → Fin 128 → EReal) (r : ℕ) : shiftRows A x r = x (A + r) := rfl

/-- The rows from A on of a stage are the stage of the rows from 2A on. -/
theorem shift_stage (W : Fin 256 → Fin 128 → EReal) (x : ℕ → Fin 128 → EReal) (A : ℕ) :
    shiftRows A (stage W x) = stage W (shiftRows (2 * A) x) := by
  funext r o
  show stage W x (A + r) o = stage W (shiftRows (2 * A) x) r o
  unfold stage shiftRows
  have e : ∀ c : Fin 256, 2 * (A + r) + c.val / 128 = 2 * A + (2 * r + c.val / 128) := fun c => by omega
  simp only [e]

/-- Row r of a stage depends only on rows 2r and 2r+1 of the operand. -/
theorem stage_congr (W : Fin 256 → Fin 128 → EReal) {x y : ℕ → Fin 128 → EReal} {n : ℕ}
    (h : ∀ r, r < 2 * n → x r = y r) : ∀ r, r < n → stage W x r = stage W y r := by
  intro r hr
  funext o
  unfold stage
  have e : ∀ c : Fin 256, x (2 * r + c.val / 128) = y (2 * r + c.val / 128) :=
    fun c => h _ (by have := c.isLt; omega)
  simp only [e]

/-- A stage of two zero rows is a zero row: a sum of zero products, and silu 0 = 0. -/
theorem stage_eq_zero (W : Fin 256 → Fin 128 → EReal) (x : ℕ → Fin 128 → EReal) (r : ℕ)
    (h0 : x (2 * r) = 0) (h1 : x (2 * r + 1) = 0) : stage W x r = 0 := by
  funext o
  unfold stage
  have e : ∀ c : Fin 256, x (2 * r + c.val / 128) = 0 := fun c => by
    rcases Nat.lt_or_ge c.val 128 with h | h
    · rw [Nat.div_eq_of_lt h]; exact h0
    · have : c.val / 128 = 1 := by have := c.isLt; omega
      rw [this]; exact h1
  simp only [e, Pi.zero_apply, zero_mul, Finset.sum_const_zero, silu_zero]

/-- The first four stages. -/
def S4 (W : Fin 5 → Fin 256 → Fin 128 → EReal) (x : ℕ → Fin 128 → EReal) : ℕ → Fin 128 → EReal :=
  stage (W 3) (stage (W 2) (stage (W 1) (stage (W 0) x)))

/-- All five stages of a window: its single remaining row. -/
def phi (W : Fin 5 → Fin 256 → Fin 128 → EReal) (x : ℕ → Fin 128 → EReal) : Fin 128 → EReal :=
  stage (W 4) (S4 W x) 0

/-- The last projection of a row. -/
def proj (P : Fin 128 → Fin 128 → EReal) (y : Fin 128 → EReal) : Fin 128 → EReal :=
  fun o => ∑ c : Fin 128, y c * P c o

theorem shift_S4 (W : Fin 5 → Fin 256 → Fin 128 → EReal) (x : ℕ → Fin 128 → EReal) (A : ℕ) :
    shiftRows A (S4 W x) = S4 W (shiftRows (16 * A) x) := by
  unfold S4
  rw [shift_stage, shift_stage, shift_stage, shift_stage, show 2 * (2 * (2 * (2 * A))) = 16 * A by omega]

/-- Row 0 after four stages depends only on the first 16 rows. -/
theorem S4_congr (W : Fin 5 → Fin 256 → Fin 128 → EReal) {x y : ℕ → Fin 128 → EReal}
    (h : ∀ r, r < 16 → x r = y r) : S4 W x 0 = S4 W y 0 := by
  unfold S4
  exact stage_congr (W 3) (n := 1) (stage_congr (W 2) (n := 2) (stage_congr (W 1) (n := 4)
    (stage_congr (W 0) (n := 8) h))) 0 (by decide)

/-- Four stages of a stack, at row A, are the four stages of the stack's 16-row group A: if group A of one stack is
    group B of another, the two agree there. -/
theorem S4_block (W : Fin 5 → Fin 256 → Fin 128 → EReal) (x y : ℕ → Fin 128 → EReal) (A B : ℕ)
    (h : ∀ r, r < 16 → y (16 * A + r) = x (16 * B + r)) : S4 W y A = S4 W x B := by
  have e1 : S4 W y A = shiftRows A (S4 W y) 0 := rfl
  have e2 : S4 W x B = shiftRows B (S4 W x) 0 := rfl
  rw [e1, e2, shift_S4, shift_S4]
  exact S4_congr W (fun r hr => h r hr)

/-- The fifth stage reads the two rows the first four leave. -/
theorem phi_eq (W : Fin 5 → Fin 256 → Fin 128 → EReal) (x : ℕ → Fin 128 → EReal) (o : Fin 128) :
    phi W x o = silu (∑ c : Fin 256, S4 W x (c.val / 128) (lane c) * W 4 c o) := by
  unfold phi stage
  simp only [Nat.mul_zero, Nat.zero_add]

/-- The merge of an all-zero window is the zero row. -/
theorem phi_zero (W : Fin 5 → Fin 256 → Fin 128 → EReal) (x : ℕ → Fin 128 → EReal) (h : ∀ r, x r = 0) :
    phi W x = 0 := by
  have h0 : stage (W 0) x = 0 := funext fun r => stage_eq_zero _ _ _ (h _) (h _)
  have h1 : stage (W 1) (stage (W 0) x) = 0 := funext fun r => stage_eq_zero _ _ _ (by rw [h0]; rfl) (by rw [h0]; rfl)
  have h2 : stage (W 2) (stage (W 1) (stage (W 0) x)) = 0 :=
    funext fun r => stage_eq_zero _ _ _ (by rw [h1]; rfl) (by rw [h1]; rfl)
  have h3 : S4 W x = 0 := funext fun r => stage_eq_zero _ _ _ (by rw [h2]; rfl) (by rw [h2]; rfl)
  unfold phi
  exact stage_eq_zero _ _ _ (by rw [h3]; rfl) (by rw [h3]; rfl)

theorem proj_zero (P : Fin 128 → Fin 128 → EReal) : proj P 0 = 0 := by
  funext o
  unfold proj
  simp only [Pi.zero_apply, zero_mul, Finset.sum_const_zero]

/-! ## The result as one function of the four argument arrays -/

/-- Window i of batch entry b and head h: row r (of 32) is row 16·i + r of the keys plus row r of the positional
    table. (Outside the window, zero: those rows are never read.) -/
def win (k : (⟨4, ![2, 16, 8192, 128]⟩ : Shape).Idx → EReal) (pe : (⟨2, ![32, 128]⟩ : Shape).Idx → EReal)
    (b : Fin 2) (h : Fin 16) (i : ℕ) : ℕ → Fin 128 → EReal :=
  fun r d => if hh : 16 * i + r < 8192 ∧ r < 32 then k (ix4 b h ⟨16 * i + r, hh.1⟩ d) + pe (ix2 ⟨r, hh.2⟩ d) else 0

/-- Stage s multiplies by the transpose of `wd[s]`: entry c of the 256-vector meets `wd[s, o, c]`. -/
abbrev wdT (wd : (⟨3, ![5, 128, 256]⟩ : Shape).Idx → EReal) : Fin 5 → Fin 256 → Fin 128 → EReal :=
  fun s c o => wd (ix3 s o c)

/-- The projection multiplies by the transpose of `ws`. -/
abbrev wsT (ws : (⟨2, ![128, 128]⟩ : Shape).Idx → EReal) : Fin 128 → Fin 128 → EReal :=
  fun c o => ws (ix2 o c)

/-- The result: output window 0 is the zero row; output window w ≥ 1 is the projected merge of key window w − 1. -/
def G (k : (⟨4, ![2, 16, 8192, 128]⟩ : Shape).Idx → EReal) (pe : (⟨2, ![32, 128]⟩ : Shape).Idx → EReal)
    (wd : (⟨3, ![5, 128, 256]⟩ : Shape).Idx → EReal) (ws : (⟨2, ![128, 128]⟩ : Shape).Idx → EReal) :
    (⟨4, ![2, 16, 512, 128]⟩ : Shape).Idx → EReal :=
  fun j => if (j 2).val = 0 then 0
    else proj (wsT ws) (phi (wdT wd) (win k pe (j 0) (j 1) ((j 2).val - 1))) (j 3)

end Cert.Merge

end
-- ==== Proof.BlockSpec.lean ====
/-
  The block one grid point stores, stated as a function of the point's four input blocks: the 512 half-blocks of 16
  key rows of one batch-head, the positional table, the five stage weights and the projection (both already
  transposed). Row 0 of the block is zero; row w ≥ 1 is the projected five-stage merge of window w − 1, whose 32
  rows are the 16 rows of half-block w − 1 followed by the 16 rows of half-block w, each plus its row of the table.
-/
import proofs.«418411_j86174223827251_3_alg».proof.KernelIdeal
import proofs.«418411_j86174223827251_3_alg».proof.Proof.Merge
import Idealize.ShloMosaic.Lib.ValueIdx

noncomputable section

namespace Cert.KernelIdeal.BlockValue

open Idealize.ShloMosaic Idealize.ShloMosaic.ValueIdx Cert.KernelIdeal Cert.Merge

/-- Window i of the block of half-blocks: row r (of 32) is row r mod 16 of half-block i + r / 16, plus row r of the
    positional table. (Outside the window, zero: those rows are never read.) -/
def kwin (x0 : Vec Ideal S1x512x16x128 .f32) (x1 : Vec Ideal S32x128 .f32) (i : ℕ) : ℕ → Fin 128 → EReal :=
  fun r d => if hh : i + r / 16 < 512 ∧ r < 32 then
      (x0 (ix4 0 ⟨i + r / 16, hh.1⟩ ⟨r % 16, Nat.mod_lt _ (by decide)⟩ d) : EReal) + (x1 (ix2 ⟨r, hh.2⟩ d) : EReal)
    else 0

/-- The block the body stores: the zero row, then one projected merge per window. -/
def blockSpec (x0 : Vec Ideal S1x512x16x128 .f32) (x1 : Vec Ideal S32x128 .f32) (x2 : Vec Ideal S5x256x128 .bf16)
    (x3 : Vec Ideal S128x128 .bf16) : S1x512x128.Idx → EReal :=
  fun y => if (y 1).val = 0 then 0
    else proj (fun c o => (x3 (ix2 c o) : EReal)) (phi (fun s c o => (x2 (ix3 s c o) : EReal)) (kwin x0 x1 ((y 1).val - 1))) (y 2)

end Cert.KernelIdeal.BlockValue

end
-- ==== Proof.KernelBlock.lean ====
/-
  What the kernel body leaves in the output block of one grid point is the block of `BlockSpec.lean`: the zero row,
  then one projected five-stage merge per window of two consecutive half-blocks.

  The body adds rows 0..15 of the positional table to half-blocks 0..510 and rows 16..31 to half-blocks 1..511, and
  stacks the two families: 1022 groups of 16 rows, group i being the first half of window i and group 511 + i its
  second half. A merge stage (pair the rows, multiply into a 256 × 128 matrix, apply silu) acts on a stack of rows as
  `Merge.stage` does, whatever the number of rows, and after four stages row A depends on group A alone
  (`Merge.S4_block`): rows i and 511 + i of the 1022 rows left are rows 0 and 1 of the four stages of window i. Laid
  side by side they are the operand of the fifth stage (`Merge.phi_eq`); the last matrix projects the row; a zero
  row goes in front.
-/
import proofs.«418411_j86174223827251_3_alg».proof.Proof.Gen.KernelIdeal.Frame
import proofs.«418411_j86174223827251_3_alg».proof.Proof.Merge
import proofs.«418411_j86174223827251_3_alg».proof.Proof.BlockSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Idealize.ShloMosaic Idealize.ShloMosaic.ValueIdx Cert.KernelIdeal Cert.KernelIdeal.Gen Cert.Merge

/-! ## A plain matrix product into a zero accumulator, read at an index -/

theorem plain_lhs0 (M K N : ℕ) (j : (⟨2, ![M, N]⟩ : Shape).Idx) (k : (DotDims.plain M K N).contr.Idx) :
    ((DotDims.plain M K N).lhsIdx j k 0).val = (j 0).val := rfl
theorem plain_lhs1 (M K N : ℕ) (j : (⟨2, ![M, N]⟩ : Shape).Idx) (k : (DotDims.plain M K N).contr.Idx) :
    ((DotDims.plain M K N).lhsIdx j k 1).val = (k ⟨0, Nat.one_pos⟩).val := rfl
theorem plain_rhs0 (M K N : ℕ) (j : (⟨2, ![M, N]⟩ : Shape).Idx) (k : (DotDims.plain M K N).contr.Idx) :
    ((DotDims.plain M K N).rhsIdx j k 0).val = (k ⟨0, Nat.one_pos⟩).val := rfl
theorem plain_rhs1 (M K N : ℕ) (j : (⟨2, ![M, N]⟩ : Shape).Idx) (k : (DotDims.plain M K N).contr.Idx) :
    ((DotDims.plain M K N).rhsIdx j k 1).val = (j 1).val := rfl

/-- Entry (p, q) of an M×K by K×N product accumulated into zero is the sum over k of l(p, k) · r(k, q). -/
theorem matmul_plain_apply {M K N : ℕ} {φ₁ φ₂ : FTy} (l : FVec Ideal ⟨2, ![M, K]⟩ φ₁) (r : FVec Ideal ⟨2, ![K, N]⟩ φ₂)
    (p : Fin M) (q : Fin N) :
    matmul (DotDims.plain M K N) none l r (constant (F := Ideal) ⟨2, ![M, N]⟩ .f32 0x00000000#32) (ix2 p q)
      = ∑ k : Fin K, l (ix2 p k) * r (ix2 k q) := by
  show FloatOps.matmul (DotDims.plain M K N) none l r (constant (F := Ideal) ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 M K N _ _).trans hk
      | ⟨1, _⟩ => exact plain_rhs1 M K N _ _)
  rw [el, er]

/-! ## The rows of a matrix of 128 lanes, as a stack indexed by the natural numbers -/

/-- Row r of an N×128 matrix for r < N, the zero row beyond. -/
def rowsOf {N : ℕ} (v : (⟨2, ![N, 128]⟩ : Shape).Idx → EReal) : ℕ → Fin 128 → EReal :=
  fun r d => if h : r < N then v (ix2 ⟨r, h⟩ d) else 0

theorem rowsOf_of_lt {N : ℕ} (v : (⟨2, ![N, 128]⟩ : Shape).Idx → EReal) (r : ℕ) (h : r < N) (d : Fin 128) :
    rowsOf v r d = v (ix2 ⟨r, h⟩ d) := dif_pos h

theorem rowsOf_of_ge {N : ℕ} (v : (⟨2, ![N, 128]⟩ : Shape).Idx → EReal) (r : ℕ) (h : N ≤ r) :
    rowsOf v r = 0 := funext fun _ => dif_neg (Nat.not_lt.2 h)

/-- Pairing the rows: entry (r, c) of the N2×256 view of a (2·N2)×128 matrix is entry (2r + c/128, c mod 128). -/
theorem pair_apply {N N2 : ℕ} (hN : N = 2 * N2) {α : Type} (v : (⟨2, ![N, 128]⟩ : Shape).Idx → α)
    (h : (⟨2, ![N, 128]⟩ : Shape).ShapeCasts ⟨2, ![N2, 256]⟩) (r : Fin N2) (c : Fin 256) :
    shapeCast ⟨2, ![N2, 256]⟩ v h (ix2 r c)
      = v (ix2 ⟨2 * r.val + c.val / 128, by have := r.isLt; have := c.isLt; omega⟩ (lane c)) :=
  shapeCast_apply v h _ _ (by
    rw [Shape.rowMajor_val_two, Shape.rowMajor_val_two]
    show (2 * r.val + c.val / 128) * 128 + c.val % 128 = r.val * 256 + c.val
    have := c.isLt; omega)

/-- One merge stage of the body: pair the rows, multiply into the 256×128 weights from a zero accumulator, apply
    silu. On the stacks of rows this is `Merge.stage` (beyond the last row both sides are zero). -/
theorem rowsOf_stage {N N2 : ℕ} (hN : N = 2 * N2) {φ₁ φ₂ : FTy} (v : FVec Ideal ⟨2, ![N, 128]⟩ φ₁)
    (h : (⟨2, ![N, 128]⟩ : Shape).ShapeCasts ⟨2, ![N2, 256]⟩) (w : FVec Ideal ⟨2, ![256, 128]⟩ φ₂)
    (y : FVec Ideal ⟨2, ![N2, 128]⟩ .f32)
    (hy : y = matmul (DotDims.plain N2 256 128) none (shapeCast ⟨2, ![N2, 256]⟩ v h) w
      (constant (F := Ideal) ⟨2, ![N2, 128]⟩ .f32 0x00000000#32)) :
    rowsOf (mulf y (logistic y)) = stage (fun c o => w (ix2 c o)) (rowsOf v) := by
  subst hy
  funext r o
  rcases Nat.lt_or_ge r N2 with hr | hr
  · rw [rowsOf_of_lt _ r hr]
    show silu (matmul (DotDims.plain N2 256 128) none (shapeCast ⟨2, ![N2, 256]⟩ v h) w
      (constant (F := Ideal) ⟨2, ![N2, 128]⟩ .f32 0x00000000#32) (ix2 ⟨r, hr⟩ o)) = _
    rw [matmul_plain_apply]
    unfold stage
    refine congrArg silu (Finset.sum_congr rfl fun c _ => ?_)
    rw [pair_apply hN v h ⟨r, hr⟩ c, rowsOf_of_lt v (2 * r + c.val / 128) (by have := c.isLt; omega)]
  · rw [rowsOf_of_ge _ r hr]
    exact (stage_eq_zero _ _ r (rowsOf_of_ge v _ (by omega)) (rowsOf_of_ge v _ (by omega))).symm ▸ rfl

/-! ## Loads through unit-stride rectangles, and the format change, at an index -/

/-- A load through a rectangle reads the source at offset + stride · coordinate on every axis. -/
theorem ld_apply {S : Shape} {e : EltTy} {Val : EltTy → Type} (X : S.Idx → Val e) (r : Rect S) (j : r.shape.Idx) (k : S.Idx)
    (hk : ∀ a, (k a).val = r.off a + r.stride a * (j a).val) : View.ld X r j = X k :=
  congrArg X (funext fun a => Fin.ext (hk a).symm)

/-- On the extended reals a change of float format is the identity. -/
theorem truncf_eq {s : Shape} {φ ψ : FTy} (a : FVec Ideal s φ) (h : ψ.bits < φ.bits) : (truncf ψ a h : FVec Ideal s ψ) = a := rfl

/-! ## The stack of 1022 groups of 16 rows -/

/-- 511 consecutive half-blocks, each plus the same 16 rows of the positional table. -/
def half (p : Vec Ideal S16x128 .f32) (a : Vec Ideal S1x511x16x128 .f32) : FVec Ideal S511x16x128 .bf16 :=
  truncf .bf16 (addf (shapeCast S511x16x128 a shapeCasts_S1x511x16x128_S511x16x128)
    (broadcastTo S511x16x128 (shapeCast S1x16x128 p shapeCasts_S16x128_S1x16x128) broadcasts_S1x16x128_S511x16x128)) bitsLt_bf16_f32

theorem half_apply (p : Vec Ideal S16x128 .f32) (a : Vec Ideal S1x511x16x128 .f32) (i : Fin 511) (r : Fin 16) (d : Fin 128) :
    half p a (ix3 i r d) = (a (ix4 (0 : Fin 1) i r d) : EReal) + (p (ix2 r d) : EReal) := by
  show (shapeCast S511x16x128 a shapeCasts_S1x511x16x128_S511x16x128) (ix3 i r d)
    + (broadcastTo S511x16x128 (shapeCast S1x16x128 p shapeCasts_S16x128_S1x16x128) broadcasts_S1x16x128_S511x16x128) (ix3 i r d) = _
  have e1 : (shapeCast S511x16x128 a shapeCasts_S1x511x16x128_S511x16x128) (ix3 i r d) = a (ix4 (0 : Fin 1) i r d) :=
    shapeCast_1abc_abc_apply a shapeCasts_S1x511x16x128_S511x16x128 i r d
  have e2 : (broadcastTo S511x16x128 (shapeCast S1x16x128 p shapeCasts_S16x128_S1x16x128) broadcasts_S1x16x128_S511x16x128) (ix3 i r d)
      = (shapeCast S1x16x128 p shapeCasts_S16x128_S1x16x128) (ix3 (0 : Fin 1) r d) :=
    broadcastTo_apply _ broadcasts_S1x16x128_S511x16x128 (ix3 i r d) (ix3 (0 : Fin 1) r d) (fun ax => by
      match ax with
      | ⟨0, _⟩ => rfl
      | ⟨1, _⟩ => rfl
      | ⟨2, _⟩ => rfl)
  have e3 : (shapeCast S1x16x128 p shapeCasts_S16x128_S1x16x128) (ix3 (0 : Fin 1) r d) = p (ix2 r d) :=
    shapeCast_ab_1ab_apply p shapeCasts_S16x128_S1x16x128 0 r d
  rw [e1, e2, e3]

/-- The two families of half-blocks stacked, as 16352 rows: group A < 511 is half-block A with positional rows 0..15,
    group 511 + A is half-block A + 1 with positional rows 16..31. -/
def stack (v0 v1 : Vec Ideal S16x128 .f32) (v2 v4 : Vec Ideal S1x511x16x128 .f32) : FVec Ideal S16352x128 .bf16 :=
  shapeCast S16352x128 (concatenate S1022x16x128 0 [⟨S511x16x128, half v0 v2⟩, ⟨S511x16x128, half v1 v4⟩]
    concatenates_S511x16x128_S511x16x128_S1022x16x128_d0) shapeCasts_S1022x16x128_S16352x128

theorem stack_collapse (v0 v1 : Vec Ideal S16x128 .f32) (v2 v4 : Vec Ideal S1x511x16x128 .f32) (R : Fin 16352) (d : Fin 128)
    (A : Fin 1022) (r : Fin 16) (hR : R.val = 16 * A.val + r.val) :
    stack v0 v1 v2 v4 (ix2 R d) = concatenate S1022x16x128 0 [⟨S511x16x128, half v0 v2⟩, ⟨S511x16x128, half v1 v4⟩]
      concatenates_S511x16x128_S511x16x128_S1022x16x128_d0 (ix3 A r d) :=
  shapeCast_apply _ shapeCasts_S1022x16x128_S16352x128 _ _ (by
    rw [Shape.rowMajor_val_three, Shape.rowMajor_val_two]
    show (A.val * 16 + r.val) * 128 + d.val = R.val * 128 + d.val
    omega)

theorem stack_lo (v0 v1 : Vec Ideal S16x128 .f32) (v2 v4 : Vec Ideal S1x511x16x128 .f32) (R : Fin 16352) (d : Fin 128)
    (i : Fin 511) (r : Fin 16) (hR : R.val = 16 * i.val + r.val) :
    stack v0 v1 v2 v4 (ix2 R d) = (v2 (ix4 (0 : Fin 1) i r d) : EReal) + (v0 (ix2 r d) : EReal) := by
  rw [stack_collapse v0 v1 v2 v4 R d ⟨i.val, by have := i.isLt; omega⟩ r hR, ← half_apply]
  exact concatenate_pair_apply_left (t := S1022x16x128) (s₁ := S511x16x128) (s₂ := S511x16x128) (0 : Fin 3) (half v0 v2) (half v1 v4)
    concatenates_S511x16x128_S511x16x128_S1022x16x128_d0 (ix3 ⟨i.val, by have := i.isLt; omega⟩ r d) rfl
    (ix3 i r d) (fun b => by
      match b with
      | ⟨0, _⟩ => rfl
      | ⟨1, _⟩ => rfl
      | ⟨2, _⟩ => rfl)

theorem stack_hi (v0 v1 : Vec Ideal S16x128 .f32) (v2 v4 : Vec Ideal S1x511x16x128 .f32) (R : Fin 16352) (d : Fin 128)
    (i : Fin 511) (r : Fin 16) (hR : R.val = 16 * (511 + i.val) + r.val) :
    stack v0 v1 v2 v4 (ix2 R d) = (v4 (ix4 (0 : Fin 1) i r d) : EReal) + (v1 (ix2 r d) : EReal) := by
  rw [stack_collapse v0 v1 v2 v4 R d ⟨511 + i.val, by have := i.isLt; omega⟩ r hR, ← half_apply]
  exact concatenate_pair_apply_right (t := S1022x16x128) (s₁ := S511x16x128) (s₂ := S511x16x128) (0 : Fin 3) (half v0 v2) (half v1 v4)
    concatenates_S511x16x128_S511x16x128_S1022x16x128_d0 (ix3 ⟨511 + i.val, by have := i.isLt; omega⟩ r d) rfl rfl
    (ix3 i r d) (fun b hb => by
      match b, hb with
      | ⟨0, _⟩, hb => exact absurd rfl hb
      | ⟨1, _⟩, _ => rfl
      | ⟨2, _⟩, _ => rfl)
    (by show i.val + 511 = 511 + i.val; omega)

/-! ## The body's stages as functions of their operands -/

/-- The paired rows times the weights, from a zero accumulator. -/
def pairMul {N N2 : ℕ} {φ₁ φ₂ : FTy} (v : FVec Ideal ⟨2, ![N, 128]⟩ φ₁) (h : (⟨2, ![N, 128]⟩ : Shape).ShapeCasts ⟨2, ![N2, 256]⟩)
    (w : FVec Ideal ⟨2, ![256, 128]⟩ φ₂) : FVec Ideal ⟨2, ![N2, 128]⟩ .f32 :=
  matmul (DotDims.plain N2 256 128) none (shapeCast ⟨2, ![N2, 256]⟩ v h) w (constant (F := Ideal) ⟨2, ![N2, 128]⟩ .f32 0x00000000#32)

/-- One stage of the body: silu of that product, in the narrower format (the same extended reals). -/
def bodyStage {N N2 : ℕ} {φ₁ φ₂ : FTy} (v : FVec Ideal ⟨2, ![N, 128]⟩ φ₁) (h : (⟨2, ![N, 128]⟩ : Shape).ShapeCasts ⟨2, ![N2, 256]⟩)
    (w : FVec Ideal ⟨2, ![256, 128]⟩ φ₂) : FVec Ideal ⟨2, ![N2, 128]⟩ .bf16 :=
  truncf .bf16 (mulf (pairMul v h w) (logistic (pairMul v h w))) bitsLt_bf16_f32

theorem rowsOf_bodyStage {N N2 : ℕ} (hN : N = 2 * N2) {φ₁ φ₂ : FTy} (v : FVec Ideal ⟨2, ![N, 128]⟩ φ₁)
    (h : (⟨2, ![N, 128]⟩ : Shape).ShapeCasts ⟨2, ![N2, 256]⟩) (w : FVec Ideal ⟨2, ![256, 128]⟩ φ₂) :
    rowsOf (bodyStage v h w) = stage (fun c o => w (ix2 c o)) (rowsOf v) :=
  rowsOf_stage hN v h w (pairMul v h w) rfl

/-- Rows i and 511 + i of the 1022 rows the four stages leave, side by side. -/
def lanePair (v : FVec Ideal S1022x128 .bf16) : FVec Ideal S511x256 .bf16 :=
  concatenate S511x256 1 [⟨S511x128, extractStridedSlice S511x128 ![0, 0] v slices_S1022x128_o0_0_S511x128⟩,
    ⟨S511x128, extractStridedSlice S511x128 ![511, 0] v slices_S1022x128_o511_0_S511x128⟩] concatenates_S511x128_S511x128_S511x256_d1

theorem lanePair_apply (v : FVec Ideal S1022x128 .bf16) (i : Fin 511) (k : Fin 256) :
    lanePair v (ix2 i k) = rowsOf v (i.val + 511 * (k.val / 128)) (lane k) := by
  rw [rowsOf_of_lt v _ (by have := i.isLt; have := k.isLt; omega)]
  rcases Nat.lt_or_ge k.val 128 with hk | hk
  · refine (concatenate_pair_apply_left (t := S511x256) (s₁ := S511x128) (s₂ := S511x128) (1 : Fin 2) _ _
      concatenates_S511x128_S511x128_S511x256_d1 (ix2 i k) rfl (ix2 i ⟨k.val, hk⟩) (fun b => by
        match b with
        | ⟨0, _⟩ => rfl
        | ⟨1, _⟩ => rfl)).trans ?_
    exact extractStridedSlice_apply ![0, 0] v slices_S1022x128_o0_0_S511x128 (ix2 i ⟨k.val, hk⟩)
      (ix2 ⟨i.val + 511 * (k.val / 128), by have := i.isLt; have := k.isLt; omega⟩ (lane k)) (fun a => by
      match a with
      | ⟨0, _⟩ => show i.val + 511 * (k.val / 128) = 0 + i.val; omega
      | ⟨1, _⟩ => show k.val % 128 = 0 + k.val; omega)
  · refine (concatenate_pair_apply_right (t := S511x256) (s₁ := S511x128) (s₂ := S511x128) (1 : Fin 2) _ _
      concatenates_S511x128_S511x128_S511x256_d1 (ix2 i k) rfl rfl (ix2 i ⟨k.val - 128, by have := k.isLt; omega⟩) (fun b hb => by
        match b, hb with
        | ⟨0, _⟩, _ => rfl
        | ⟨1, _⟩, hb => exact absurd rfl hb)
      (by show k.val - 128 + 128 = k.val; omega)).trans ?_
    exact extractStridedSlice_apply ![511, 0] v slices_S1022x128_o511_0_S511x128 (ix2 i ⟨k.val - 128, by have := k.isLt; omega⟩)
      (ix2 ⟨i.val + 511 * (k.val / 128), by have := i.isLt; have := k.isLt; omega⟩ (lane k)) (fun a => by
      match a with
      | ⟨0, _⟩ => show i.val + 511 * (k.val / 128) = 511 + i.val; have := k.isLt; omega
      | ⟨1, _⟩ => show k.val % 128 = 0 + (k.val - 128); have := k.isLt; omega)

/-- The fifth stage: the pairs against the last 256×128 weights, then silu. -/
def lastStage (v : FVec Ideal S1022x128 .bf16) (w : FVec Ideal S256x128 .bf16) : FVec Ideal S511x128 .bf16 :=
  truncf .bf16 (mulf (matmul (DotDims.plain 511 256 128) none (lanePair v) w (constant (F := Ideal) S511x128 .f32 0x00000000#32))
    (logistic (matmul (DotDims.plain 511 256 128) none (lanePair v) w (constant (F := Ideal) S511x128 .f32 0x00000000#32)))) bitsLt_bf16_f32

theorem lastStage_apply (v : FVec Ideal S1022x128 .bf16) (w : FVec Ideal S256x128 .bf16) (i : Fin 511) (q : Fin 128) :
    lastStage v w (ix2 i q) = silu (∑ c : Fin 256, rowsOf v (i.val + 511 * (c.val / 128)) (lane c) * w (ix2 c q)) := by
  show silu (matmul (DotDims.plain 511 256 128) none (lanePair v) w (constant (F := Ideal) S511x128 .f32 0x00000000#32) (ix2 i q)) = _
  rw [matmul_plain_apply]
  exact congrArg silu (Finset.sum_congr rfl fun c _ => by rw [lanePair_apply])

/-- The projection: the rows against the 128×128 matrix. -/
def project (z : FVec Ideal S511x128 .bf16) (p : FVec Ideal S128x128 .bf16) : FVec Ideal S511x128 .f32 :=
  matmul (DotDims.plain 511 128 128) none z p (constant (F := Ideal) S511x128 .f32 0x00000000#32)

theorem project_apply (z : FVec Ideal S511x128 .bf16) (p : FVec Ideal S128x128 .bf16) (i : Fin 511) (o : Fin 128) :
    project z p (ix2 i o) = ∑ c : Fin 128, z (ix2 i c) * p (ix2 c o) := matmul_plain_apply z p i o

/-- A zero row in front, and the leading unit axis. -/
def finish (v : FVec Ideal S511x128 .f32) : FVec Ideal S1x512x128 .f32 :=
  shapeCast S1x512x128 (concatenate S512x128 0 [⟨S1x128, broadcast S1x128 (Scalar.ofBits (F := Ideal) .f32 0x00000000#32)⟩, ⟨S511x128, v⟩]
    concatenates_S1x128_S511x128_S512x128_d0) shapeCasts_S512x128_S1x512x128

theorem finish_zero (v : FVec Ideal S511x128 .f32) (u : Fin 1) (w : Fin 512) (o : Fin 128) (hw : w.val = 0) :
    finish v (ix3 u w o) = 0 := by
  refine (shapeCast_ab_1ab_apply _ shapeCasts_S512x128_S1x512x128 u w o).trans ?_
  refine (concatenate_pair_apply_left (t := S512x128) (s₁ := S1x128) (s₂ := S511x128) (0 : Fin 2) _ _
    concatenates_S1x128_S511x128_S512x128_d0 (ix2 w o) rfl (ix2 (0 : Fin 1) o) (fun b => by
      match b with
      | ⟨0, _⟩ => exact hw.symm
      | ⟨1, _⟩ => rfl)).trans ?_
  exact Ideal.ofBits_zero_f32

theorem finish_succ (v : FVec Ideal S511x128 .f32) (u : Fin 1) (w : Fin 512) (o : Fin 128) (i : Fin 511) (hw : w.val = i.val + 1) :
    finish v (ix3 u w o) = v (ix2 i o) := by
  refine (shapeCast_ab_1ab_apply _ shapeCasts_S512x128_S1x512x128 u w o).trans ?_
  exact concatenate_pair_apply_right (t := S512x128) (s₁ := S1x128) (s₂ := S511x128) (0 : Fin 2) _ _
    concatenates_S1x128_S511x128_S512x128_d0 (ix2 w o) rfl rfl (ix2 i o) (fun b hb => by
      match b, hb with
      | ⟨0, _⟩, hb => exact absurd rfl hb
      | ⟨1, _⟩, _ => rfl)
    (by show i.val + 1 = w.val; omega)

/-! ## The body's three printed terms are these functions -/

theorem pay23_eq (v0 v1 : Vec Ideal S16x128 .f32) (v2 v4 : Vec Ideal S1x511x16x128 .f32) (v17 v24 v31 : Vec Ideal S1x256x128 .bf16) :
    (truncf .bf16 (mulf (k0_pay2 (F := Ideal) v0 v1 v2 v4 v17 v24 v31) (k0_pay3 (F := Ideal) v0 v1 v2 v4 v17 v24 v31)) bitsLt_bf16_f32
        : FVec Ideal S2044x128 .bf16)
      = bodyStage (N := 4088) (N2 := 2044) (φ₁ := .bf16) (φ₂ := .bf16)
          (bodyStage (N := 8176) (N2 := 4088) (φ₁ := .bf16) (φ₂ := .bf16)
            (bodyStage (N := 16352) (N2 := 8176) (φ₁ := .bf16) (φ₂ := .bf16) (stack v0 v1 v2 v4) shapeCasts_S16352x128_S8176x256
              (shapeCast S256x128 v17 shapeCasts_S1x256x128_S256x128))
            shapeCasts_S8176x128_S4088x256 (shapeCast S256x128 v24 shapeCasts_S1x256x128_S256x128))
          shapeCasts_S4088x128_S2044x256 (shapeCast S256x128 v31 shapeCasts_S1x256x128_S256x128) := rfl

theorem pay1_eq (v33 v34 : FVec Ideal S2044x128 .f32) (v38 v47 : Vec Ideal S1x256x128 .bf16) (v53 : Vec Ideal S128x128 .bf16) :
    k0_pay1 (F := Ideal) v33 v34 v38 v47 v53
      = finish (project
          (lastStage
            (bodyStage (N := 2044) (N2 := 1022) (φ₁ := .bf16) (φ₂ := .bf16) (truncf .bf16 (mulf v33 v34) bitsLt_bf16_f32 : FVec Ideal S2044x128 .bf16)
              shapeCasts_S2044x128_S1022x256 (shapeCast S256x128 v38 shapeCasts_S1x256x128_S256x128))
            (shapeCast S256x128 v47 shapeCasts_S1x256x128_S256x128))
          (shapeCast S128x128 v53 shapeCasts_S128x128_S128x128)) := rfl

/-! ## The loads of the body, at an index -/

/-- Stage s's weights as the body loads them: slab s of the five, its unit axis dropped. -/
theorem wload_apply (x2 : Vec Ideal S5x256x128 .bf16) (s : Fin 5)
    (inb : ∀ a, (![s.val, 0, 0] : Fin 3 → ℕ) a + S1x256x128.size a ≤ S5x256x128.size a) (c : Fin 256) (o : Fin 128) :
    shapeCast S256x128 (View.ld x2 (Rect.unit (s := S5x256x128) ![s.val, 0, 0] S1x256x128.size inb) : Vec Ideal S1x256x128 .bf16)
        shapeCasts_S1x256x128_S256x128 (ix2 c o)
      = x2 (ix3 s c o) := by
  refine (shapeCast_1ab_ab_apply _ shapeCasts_S1x256x128_S256x128 c o).trans ?_
  exact ld_apply x2 (Rect.unit (s := S5x256x128) ![s.val, 0, 0] S1x256x128.size inb) (ix3 (0 : Fin 1) c o) (ix3 s c o) (fun a => by
    match a with
    | ⟨0, _⟩ => show s.val = s.val + 1 * 0; omega
    | ⟨1, _⟩ => show c.val = 0 + 1 * c.val; omega
    | ⟨2, _⟩ => show o.val = 0 + 1 * o.val; omega)

/-- The projection matrix as the body loads it: the whole block. -/
theorem pload_apply (x3 : Vec Ideal S128x128 .bf16) (c o : Fin 128) :
    shapeCast S128x128 (View.ld x3 r0_9 : Vec Ideal S128x128 .bf16) shapeCasts_S128x128_S128x128 (ix2 c o) = x3 (ix2 c o) := by
  refine (congrFun (shapeCast_self (s := S128x128) (View.ld x3 r0_9) shapeCasts_S128x128_S128x128) (ix2 c o)).trans ?_
  exact ld_apply x3 r0_9 (ix2 c o) (ix2 c o) (fun a => by
    match a with
    | ⟨0, _⟩ => show c.val = 0 + 1 * c.val; omega
    | ⟨1, _⟩ => show o.val = 0 + 1 * o.val; omega)

/-- Group i < 511 of the stack is the first half of window i … -/
theorem stackRows_lo (x0 : Vec Ideal S1x512x16x128 .f32) (x1 : Vec Ideal S32x128 .f32) (i : ℕ) (hi : i < 511) (r : ℕ) (hr : r < 16) :
    rowsOf (stack (View.ld x1 r0_0) (View.ld x1 r0_1) (View.ld x0 r0_2) (View.ld x0 r0_3)) (16 * i + r) = kwin x0 x1 i (16 * 0 + r) := by
  funext d
  rw [rowsOf_of_lt _ _ (show 16 * i + r < 16352 by omega),
    stack_lo _ _ _ _ ⟨16 * i + r, by omega⟩ d ⟨i, hi⟩ ⟨r, hr⟩ rfl]
  unfold kwin
  rw [dif_pos (show i + (16 * 0 + r) / 16 < 512 ∧ 16 * 0 + r < 32 by omega)]
  refine congrArg₂ (· + ·) (ld_apply x0 r0_2 (ix4 (0 : Fin 1) (⟨i, hi⟩ : Fin 511) (⟨r, hr⟩ : Fin 16) d) _ (fun a => ?_))
    (ld_apply x1 r0_0 (ix2 (⟨r, hr⟩ : Fin 16) d) _ (fun a => ?_))
  · match a with
    | ⟨0, _⟩ => show 0 = 0 + 1 * 0; rfl
    | ⟨1, _⟩ => show i + (16 * 0 + r) / 16 = 0 + 1 * i; omega
    | ⟨2, _⟩ => show (16 * 0 + r) % 16 = 0 + 1 * r; omega
    | ⟨3, _⟩ => show d.val = 0 + 1 * d.val; omega
  · match a with
    | ⟨0, _⟩ => show 16 * 0 + r = 0 + 1 * r; omega
    | ⟨1, _⟩ => show d.val = 0 + 1 * d.val; omega

/-- … and group 511 + i is its second half. -/
theorem stackRows_hi (x0 : Vec Ideal S1x512x16x128 .f32) (x1 : Vec Ideal S32x128 .f32) (i : ℕ) (hi : i < 511) (r : ℕ) (hr : r < 16) :
    rowsOf (stack (View.ld x1 r0_0) (View.ld x1 r0_1) (View.ld x0 r0_2) (View.ld x0 r0_3)) (16 * (511 + i) + r)
      = kwin x0 x1 i (16 * 1 + r) := by
  funext d
  rw [rowsOf_of_lt _ _ (show 16 * (511 + i) + r < 16352 by omega),
    stack_hi _ _ _ _ ⟨16 * (511 + i) + r, by omega⟩ d ⟨i, hi⟩ ⟨r, hr⟩ rfl]
  unfold kwin
  rw [dif_pos (show i + (16 * 1 + r) / 16 < 512 ∧ 16 * 1 + r < 32 by omega)]
  refine congrArg₂ (· + ·) (ld_apply x0 r0_3 (ix4 (0 : Fin 1) (⟨i, hi⟩ : Fin 511) (⟨r, hr⟩ : Fin 16) d) _ (fun a => ?_))
    (ld_apply x1 r0_1 (ix2 (⟨r, hr⟩ : Fin 16) d) _ (fun a => ?_))
  · match a with
    | ⟨0, _⟩ => show 0 = 0 + 1 * 0; rfl
    | ⟨1, _⟩ => show i + (16 * 1 + r) / 16 = 1 + 1 * i; omega
    | ⟨2, _⟩ => show (16 * 1 + r) % 16 = 0 + 1 * r; omega
    | ⟨3, _⟩ => show d.val = 0 + 1 * d.val; omega
  · match a with
    | ⟨0, _⟩ => show 16 * 1 + r = 16 + 1 * r; omega
    | ⟨1, _⟩ => show d.val = 0 + 1 * d.val; omega

/-- The 1022 rows the body's four stages leave are the four merge stages of the stack. -/
theorem rows_after_four (x0 : Vec Ideal S1x512x16x128 .f32) (x1 : Vec Ideal S32x128 .f32) (x2 : Vec Ideal S5x256x128 .bf16) :
    rowsOf (bodyStage (N := 2044) (N2 := 1022) (φ₁ := .bf16) (φ₂ := .bf16)
        (truncf .bf16 (mulf
          (k0_pay2 (F := Ideal) (View.ld x1 r0_0) (View.ld x1 r0_1) (View.ld x0 r0_2) (View.ld x0 r0_3) (View.ld x2 r0_4) (View.ld x2 r0_5) (View.ld x2 r0_6))
          (k0_pay3 (F := Ideal) (View.ld x1 r0_0) (View.ld x1 r0_1) (View.ld x0 r0_2) (View.ld x0 r0_3) (View.ld x2 r0_4) (View.ld x2 r0_5) (View.ld x2 r0_6)))
          bitsLt_bf16_f32 : FVec Ideal S2044x128 .bf16)
        shapeCasts_S2044x128_S1022x256 (shapeCast S256x128 (View.ld x2 r0_7) shapeCasts_S1x256x128_S256x128))
      = S4 (fun s c o => (x2 (ix3 s c o) : EReal))
          (rowsOf (stack (View.ld x1 r0_0) (View.ld x1 r0_1) (View.ld x0 r0_2) (View.ld x0 r0_3))) := by
  have e0 : (fun (c : Fin 256) (o : Fin 128) => shapeCast S256x128 (View.ld x2 r0_4) shapeCasts_S1x256x128_S256x128 (ix2 c o))
      = fun c o => (x2 (ix3 0 c o) : EReal) := funext fun c => funext fun o => wload_apply x2 0 _ c o
  have e1 : (fun (c : Fin 256) (o : Fin 128) => shapeCast S256x128 (View.ld x2 r0_5) shapeCasts_S1x256x128_S256x128 (ix2 c o))
      = fun c o => (x2 (ix3 1 c o) : EReal) := funext fun c => funext fun o => wload_apply x2 1 _ c o
  have e2 : (fun (c : Fin 256) (o : Fin 128) => shapeCast S256x128 (View.ld x2 r0_6) shapeCasts_S1x256x128_S256x128 (ix2 c o))
      = fun c o => (x2 (ix3 2 c o) : EReal) := funext fun c => funext fun o => wload_apply x2 2 _ c o
  have e3 : (fun (c : Fin 256) (o : Fin 128) => shapeCast S256x128 (View.ld x2 r0_7) shapeCasts_S1x256x128_S256x128 (ix2 c o))
      = fun c o => (x2 (ix3 3 c o) : EReal) := funext fun c => funext fun o => wload_apply x2 3 _ c o
  rw [pay23_eq, rowsOf_bodyStage (N := 2044) (N2 := 1022) rfl, rowsOf_bodyStage (N := 4088) (N2 := 2044) rfl,
    rowsOf_bodyStage (N := 8176) (N2 := 4088) rfl, rowsOf_bodyStage (N := 16352) (N2 := 8176) rfl, e0, e1, e2, e3]
  rfl

/-! ## The block -/

theorem out0_4_eq (x0 : Vec Ideal S1x512x16x128 .f32) (x1 : Vec Ideal S32x128 .f32) (x2 : Vec Ideal S5x256x128 .bf16)
    (x3 : Vec Ideal S128x128 .bf16) :
    (out0_4 (F := Ideal) x0 x1 x2 x3 : S1x512x128.Idx → EReal) = blockSpec x0 x1 x2 x3 := by
  have hz : (![0, 0, 0] : Fin 3 → ℕ) = fun _ => 0 := funext fun a => by
    match a with
    | ⟨0, _⟩ => rfl
    | ⟨1, _⟩ => rfl
    | ⟨2, _⟩ => rfl
  unfold out0_4
  rw [View.canon_unit_zero hz, pay1_eq]
  funext y
  obtain ⟨u, w, o, rfl⟩ : ∃ (u : Fin 1) (w : Fin 512) (o : Fin 128), y = ix3 u w o := ⟨y 0, y 1, y 2, eq_ix3 y⟩
  unfold blockSpec
  show _ = if w.val = 0 then 0 else proj (fun c o => (x3 (ix2 c o) : EReal))
    (phi (fun s c o => (x2 (ix3 s c o) : EReal)) (kwin x0 x1 (w.val - 1))) o
  by_cases hw : w.val = 0
  · rw [if_pos hw]
    exact finish_zero _ u w o hw
  · rw [if_neg hw]
    obtain ⟨i, hi⟩ : ∃ i : Fin 511, w.val = i.val + 1 :=
      ⟨⟨w.val - 1, by have := w.isLt; omega⟩, by show w.val = w.val - 1 + 1; omega⟩
    rw [finish_succ _ u w o i hi, project_apply, show w.val - 1 = i.val by omega]
    unfold proj
    refine Finset.sum_congr rfl fun q _ => ?_
    refine congrArg₂ (· * ·) ?_ (pload_apply x3 q o)
    rw [lastStage_apply, phi_eq, rows_after_four]
    refine congrArg silu (Finset.sum_congr rfl fun k _ => ?_)
    refine congrArg₂ (· * ·) ?_ (wload_apply x2 4 _ k q)
    rcases (show k.val / 128 = 0 ∨ k.val / 128 = 1 by have := k.isLt; omega) with hq | hq
    · rw [hq, show i.val + 511 * 0 = i.val by omega]
      exact congrFun (S4_block _ (kwin x0 x1 i.val) _ i.val 0 (fun r hr => stackRows_lo x0 x1 i.val i.isLt r hr)) (lane k)
    · rw [hq, show i.val + 511 * 1 = 511 + i.val by omega]
      exact congrFun (S4_block _ (kwin x0 x1 i.val) _ (511 + i.val) 1 (fun r hr => stackRows_hi x0 x1 i.val i.isLt r hr)) (lane k)

end Cert.KernelIdeal.BlockValue

end
-- ==== Proof.KernelArray.lean ====
/-
  From one grid point's block to the whole result. Grid point t (of 32) is batch entry t / 16 and head t mod 16: its
  block of half-blocks is the keys of that batch-head, reshaped 8192 rows → 512 half-blocks of 16 rows; the other
  three windows are whole arrays (the table, the transposed stage weights, the transposed projection). So the block
  the body stores at point t is rows (t, ·, ·) of the shared result function, the 32 blocks tile the output array,
  and the host reshape after the region regroups its leading axis 32 → 2 × 16.
-/
import proofs.«418411_j86174223827251_3_alg».proof.Proof.KernelBlock
import Idealize.ShloMosaic.Lib.StableHlo.Run

set_option maxRecDepth 16384

noncomputable section

namespace Cert.KernelIdeal.ArrayValue

open Idealize.ShloMosaic Idealize.ShloMosaic.TcCoe Idealize.ShloMosaic.Tactic Idealize.ShloMosaic.ValueIdx
open Idealize.SL.Sem
open Cert.KernelIdeal Cert.KernelIdeal.Gen Cert.Merge Cert.KernelIdeal.BlockValue
open Idealize.ShloMosaic.Pipeline (Dat Cfg Window)

variable (m : (ℓ : Loc nD τ sig) → Buf (Elt Ideal) ℓ) (ρ : Dev nD → PrngReg)

/-! ## The four argument arrays, and the arrays the region finds -/

abbrev argK (c : Dev nD) : S2x16x8192x128.Idx → EReal := m ((c : Thread nD τ).loc main_arg0)
abbrev argPe (c : Dev nD) : S32x128.Idx → EReal := m ((c : Thread nD τ).loc main_arg1)
abbrev argWd (c : Dev nD) : S5x128x256.Idx → EReal := m ((c : Thread nD τ).loc main_arg2)
abbrev argWs (c : Dev nD) : S128x128.Idx → EReal := m ((c : Thread nD τ).loc main_arg3)

/-- The keys as the region finds them: two reshapes, [2,16,8192,128] → [32,8192,128] → [32,512,16,128]. Entry
    (t, hb, r, d) is row 16·hb + r of batch entry t / 16, head t mod 16. -/
theorem keys_apply (c : Dev nD) (t : Fin 32) (hb : Fin 512) (r : Fin 16) (d : Fin 128) :
    (V m c main_v1 : S32x512x16x128.Idx → EReal) (ix4 t hb r d)
      = argK m c (ix4 ⟨t.val / 16, by have := t.isLt; omega⟩ ⟨t.val % 16, Nat.mod_lt _ (by decide)⟩
          ⟨16 * hb.val + r.val, by have := hb.isLt; have := r.isLt; omega⟩ d) := by
  have e : (V m c main_v1 : S32x512x16x128.Idx → EReal)
      = shapeCast S32x512x16x128 (shapeCast S32x8192x128 (argK m c) shapeCasts_S2x16x8192x128_S32x8192x128)
          shapeCasts_S32x8192x128_S32x512x16x128 := by
    show StableHlo.after hostOps0 (fun b => m (c, b)) (Proc.devRef .tc main_v1) = _
    after_results
    rfl
  have ht := t.isLt; have hhb := hb.isLt; have hr := r.isLt; have hd := d.isLt
  rw [e]
  refine (shapeCast_apply _ shapeCasts_S32x8192x128_S32x512x16x128 (ix4 t hb r d)
    (ix3 t ⟨16 * hb.val + r.val, by omega⟩ d) ?_).trans ?_
  · rw [Shape.rowMajor_val_three, Shape.rowMajor_val_four]
    show (t.val * 8192 + (16 * hb.val + r.val)) * 128 + d.val = ((t.val * 512 + hb.val) * 16 + r.val) * 128 + d.val
    omega
  · refine shapeCast_apply _ shapeCasts_S2x16x8192x128_S32x8192x128 _ _ ?_
    rw [Shape.rowMajor_val_four, Shape.rowMajor_val_three]
    show ((t.val / 16 * 16 + t.val % 16) * 8192 + (16 * hb.val + r.val)) * 128 + d.val
      = (t.val * 8192 + (16 * hb.val + r.val)) * 128 + d.val
    omega

/-- The stage weights as the region finds them: each of the five matrices transposed (the narrowing of the format is
    the identity on the extended reals). -/
theorem weights_apply (c : Dev nD) (s : Fin 5) (a : Fin 256) (o : Fin 128) :
    (V m c main_v3 : S5x256x128.Idx → EReal) (ix3 s a o) = argWd m c (ix3 s o a) := by
  have e : (V m c main_v3 : S5x256x128.Idx → EReal)
      = truncf (F := Ideal) .bf16 (transpose S5x256x128 [0, 2, 1] (argWd m c) transposes_S5x128x256_S5x256x128_0_2_1)
          bitsLt_bf16_f32 := by
    show StableHlo.after hostOps0 (fun b => m (c, b)) (Proc.devRef .tc main_v3) = _
    after_results
  rw [e]
  show transpose S5x256x128 [0, 2, 1] (argWd m c) transposes_S5x128x256_S5x256x128_0_2_1 (ix3 s a o) = _
  exact transpose_ix3_021_apply _ _ _ _ _

/-- The projection as the region finds it: transposed. -/
theorem proj_apply (c : Dev nD) (a : Fin 128) (o : Fin 128) :
    (V m c main_v5 : S128x128.Idx → EReal) (ix2 a o) = argWs m c (ix2 o a) := by
  have e : (V m c main_v5 : S128x128.Idx → EReal)
      = truncf (F := Ideal) .bf16 (transpose S128x128 [1, 0] (argWs m c) transposes_S128x128_S128x128_1_0) bitsLt_bf16_f32 := by
    show StableHlo.after hostOps0 (fun b => m (c, b)) (Proc.devRef .tc main_v5) = _
    after_results
  rw [e]
  show transpose S128x128 [1, 0] (argWs m c) transposes_S128x128_S128x128_1_0 (ix2 a o) = _
  exact transpose_ix2_apply _ _ _ _

/-! ## The windows' block indices, decided over the grid -/

/-- Windows 0 (the half-blocks) and 4 (the output) move along their leading axis with the grid point; the table, the
    weights and the projection stay at block 0. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem point_lt (t : Fin cfg0.N) : t.val < 32 := Nat.lt_of_lt_of_eq t.isLt N_0

/-! ## The input blocks at a grid point, as functions of the argument arrays -/

/-- Half-block hb of point t's block: rows 16·hb … 16·hb + 15 of the keys of batch entry t / 16, head t mod 16. -/
theorem blk0_apply (c : Dev nD) (t : Fin cfg0.N) (hb : Fin 512) (r : Fin 16) (d : Fin 128) :
    (iblk m c 0 t : S1x512x16x128.Idx → EReal) (ix4 (0 : Fin 1) hb r d)
      = argK m c (ix4 ⟨t.val / 16, by have := point_lt t; omega⟩ ⟨t.val % 16, Nat.mod_lt _ (by decide)⟩
          ⟨16 * hb.val + r.val, by have := hb.isLt; have := r.isLt; omega⟩ d) := by
  obtain ⟨e0, e1, e2, e3, -⟩ := idx_facts t
  have hhb := hb.isLt; have hr := r.isLt; have hd := d.isLt
  refine Eq.trans ?_ (keys_apply m c ⟨t.val, point_lt t⟩ hb r d)
  show V m c main_v1 (((cfg0.win 0).blk t).view.emb (ix4 (0 : Fin 1) hb r d)) = V m c main_v1 (ix4 ⟨t.val, point_lt t⟩ hb r d)
  refine congrArg (V m c main_v1) ?_
  funext a; apply Fin.ext
  match a with
  | ⟨0, _⟩ => show win0_0.index t (0 : Fin 4) * 1 + 1 * 0 = t.val; omega
  | ⟨1, _⟩ => show win0_0.index t (1 : Fin 4) * 512 + 1 * hb.val = hb.val; omega
  | ⟨2, _⟩ => show win0_0.index t (2 : Fin 4) * 16 + 1 * r.val = r.val; omega
  | ⟨3, _⟩ => show win0_0.index t (3 : Fin 4) * 128 + 1 * d.val = d.val; omega

/-- The table's block is the table. -/
theorem blk1_apply (c : Dev nD) (t : Fin cfg0.N) (r : Fin 32) (d : Fin 128) :
    (iblk m c 1 t : S32x128.Idx → EReal) (ix2 r d) = argPe m c (ix2 r d) := by
  obtain ⟨-, -, -, -, e0, e1, -⟩ := idx_facts t
  have hr := r.isLt; have hd := d.isLt
  refine Eq.trans ?_ (congrFun (V_main_arg1 m c) (ix2 r d))
  show V m c main_arg1 (((cfg0.win 1).blk t).view.emb (ix2 r d)) = V m c main_arg1 (ix2 r d)
  refine congrArg (V m c main_arg1) ?_
  funext a; apply Fin.ext
  match a with
  | ⟨0, _⟩ => show win0_1.index t (0 : Fin 2) * 32 + 1 * r.val = r.val; omega
  | ⟨1, _⟩ => show win0_1.index t (1 : Fin 2) * 128 + 1 * d.val = d.val; omega

/-- The weights' block is the five stage matrices, transposed. -/
theorem blk2_apply (c : Dev nD) (t : Fin cfg0.N) (s : Fin 5) (a : Fin 256) (o : Fin 128) :
    (iblk m c 2 t : S5x256x128.Idx → EReal) (ix3 s a o) = argWd m c (ix3 s o a) := by
  obtain ⟨-, -, -, -, -, -, e0, e1, e2, -⟩ := idx_facts t
  have hs := s.isLt; have ha := a.isLt; have ho := o.isLt
  refine Eq.trans ?_ (weights_apply m c s a o)
  show V m c main_v3 (((cfg0.win 2).blk t).view.emb (ix3 s a o)) = V m c main_v3 (ix3 s a o)
  refine congrArg (V m c main_v3) ?_
  funext b; apply Fin.ext
  match b with
  | ⟨0, _⟩ => show win0_2.index t (0 : Fin 3) * 5 + 1 * s.val = s.val; omega
  | ⟨1, _⟩ => show win0_2.index t (1 : Fin 3) * 256 + 1 * a.val = a.val; omega
  | ⟨2, _⟩ => show win0_2.index t (2 : Fin 3) * 128 + 1 * o.val = o.val; omega

/-- The projection's block is the projection, transposed. -/
theorem blk3_apply (c : Dev nD) (t : Fin cfg0.N) (a : Fin 128) (o : Fin 128) :
    (iblk m c 3 t : S128x128.Idx → EReal) (ix2 a o) = argWs m c (ix2 o a) := by
  obtain ⟨-, -, -, -, -, -, -, -, -, e0, e1, -⟩ := idx_facts t
  have ha := a.isLt; have ho := o.isLt
  refine Eq.trans ?_ (proj_apply m c a o)
  show V m c main_v5 (((cfg0.win 3).blk t).view.emb (ix2 a o)) = V m c main_v5 (ix2 a o)
  refine congrArg (V m c main_v5) ?_
  funext b; apply Fin.ext
  match b with
  | ⟨0, _⟩ => show win0_3.index t (0 : Fin 2) * 128 + 1 * a.val = a.val; omega
  | ⟨1, _⟩ => show win0_3.index t (1 : Fin 2) * 128 + 1 * o.val = o.val; omega

/-- Window i of point t's block is key window i of its batch-head: half-block i + r / 16 at row r mod 16 is key row
    16·i + r. -/
theorem kwin_eq (c : Dev nD) (t : Fin cfg0.N) (i : ℕ) (hi : i < 511) :
    kwin (iblk m c 0 t) (iblk m c 1 t) i
      = win (argK m c) (argPe m c) ⟨t.val / 16, by have := point_lt t; omega⟩ ⟨t.val % 16, Nat.mod_lt _ (by decide)⟩ i := by
  funext r d
  unfold kwin win
  by_cases hr : r < 32
  · have h1 : i + r / 16 < 512 ∧ r < 32 := ⟨by omega, hr⟩
    have h2 : 16 * i + r < 8192 ∧ r < 32 := ⟨by omega, hr⟩
    rw [dif_pos h1, dif_pos h2]
    refine congrArg₂ (fun a b : EReal => a + b) ?_ ?_
    · refine (blk0_apply m c t ⟨i + r / 16, h1.1⟩ ⟨r % 16, Nat.mod_lt _ (by decide)⟩ d).trans ?_
      refine congrArg (argK m c) ?_
      funext a; apply Fin.ext
      match a with
      | ⟨0, _⟩ => rfl
      | ⟨1, _⟩ => rfl
      | ⟨2, _⟩ => show 16 * (i + r / 16) + r % 16 = 16 * i + r; omega
      | ⟨3, _⟩ => rfl
    · exact blk1_apply m c t ⟨r, hr⟩ d
  · rw [dif_neg (fun h => hr h.2), dif_neg (fun h => hr h.2)]

/-! ## The output array -/

/-- The region's output array [32, 512, 128]: row t is the result for batch entry t / 16, head t mod 16. -/
def resultRows (k : S2x16x8192x128.Idx → EReal) (pe : S32x128.Idx → EReal) (wd : S5x128x256.Idx → EReal)
    (ws : S128x128.Idx → EReal) : S32x512x128.Idx → EReal :=
  fun i => G k pe wd ws (ix4 ⟨(i 0).val / 16, by have : (i 0).val < 32 := (i 0).isLt; omega⟩
    ⟨(i 0).val % 16, Nat.mod_lt _ (by decide)⟩ (i 1) (i 2))

/-- What point t writes back is block t of that array. -/
theorem flushed_eq (c : Dev nD) (t : Fin cfg0.N) :
    (dats m 0 c).flushed 4 t
      = ((cfg0.win 4).blk t).view.read (Elt Ideal) (resultRows (argK m c) (argPe m c) (argWd m c) (argWs m c)) := by
  show (cfg0.win 4).cut (grid0.coords t) ((dats m 0 c).after 4 t) = _
  rw [after0_4]
  obtain ⟨-, -, -, -, -, -, -, -, -, -, -, e0, e1, e2⟩ := idx_facts t
  funext y
  have hy0 : (y 0).val < 1 := (y 0).isLt
  have hy1 : (y 1).val < 512 := (y 1).isLt
  have hy2 : (y 2).val < 128 := (y 2).isLt
  have hemb : ((cfg0.win 4).blk t).view.emb y = (ix3 ⟨t.val, point_lt t⟩ ⟨(y 1).val, hy1⟩ ⟨(y 2).val, hy2⟩ : S32x512x128.Idx) := by
    funext a; apply Fin.ext
    match a with
    | ⟨0, _⟩ => show win0_4.index t (0 : Fin 3) * 1 + 1 * (y 0).val = t.val; omega
    | ⟨1, _⟩ => show win0_4.index t (1 : Fin 3) * 512 + 1 * (y 1).val = (y 1).val; omega
    | ⟨2, _⟩ => show win0_4.index t (2 : Fin 3) * 128 + 1 * (y 2).val = (y 2).val; omega
  show out0_4 (F := Ideal) (iblk m c 0 t) (iblk m c 1 t) (iblk m c 2 t) (iblk m c 3 t) y
    = resultRows (argK m c) (argPe m c) (argWd m c) (argWs m c) (((cfg0.win 4).blk t).view.emb y)
  rw [hemb]
  refine (congrFun (out0_4_eq (iblk m c 0 t) (iblk m c 1 t) (iblk m c 2 t) (iblk m c 3 t)) y).trans ?_
  have hw3 : (fun a o => ((iblk m c 3 t : S128x128.Idx → EReal) (ix2 a o) : EReal)) = wsT (argWs m c) :=
    funext fun a => funext fun o => blk3_apply m c t a o
  have hw2 : (fun s a o => ((iblk m c 2 t : S5x256x128.Idx → EReal) (ix3 s a o) : EReal)) = wdT (argWd m c) :=
    funext fun s => funext fun a => funext fun o => blk2_apply m c t s a o
  show (if (y 1).val = 0 then (0 : EReal) else proj (fun a o => ((iblk m c 3 t : S128x128.Idx → EReal) (ix2 a o) : EReal))
      (phi (fun s a o => ((iblk m c 2 t : S5x256x128.Idx → EReal) (ix3 s a o) : EReal)) (kwin (iblk m c 0 t) (iblk m c 1 t) ((y 1).val - 1))) (y 2))
    = (if (y 1).val = 0 then (0 : EReal) else proj (wsT (argWs m c)) (phi (wdT (argWd m c))
      (win (argK m c) (argPe m c) ⟨t.val / 16, by have := point_lt t; omega⟩ ⟨t.val % 16, Nat.mod_lt _ (by decide)⟩ ((y 1).val - 1))) ⟨(y 2).val, hy2⟩)
  by_cases h0 : (y 1).val = 0
  · rw [if_pos h0, if_pos h0]
  · rw [if_neg h0, if_neg h0, hw3, hw2, kwin_eq m c t ((y 1).val - 1) (by omega)]
    rfl

/-- An index of the array is in point t's block iff each coordinate is in the block's range on its axis. -/
theorem mem_blk4 (t : Fin cfg0.N) (i : S32x512x128.Idx) :
    i ∈ ((cfg0.win 4).blk t).view.set ↔ ∀ a : Fin 3, win0_4.index t a * S1x512x128.size a ≤ (i a).val
      ∧ (i a).val < win0_4.index t a * S1x512x128.size a + S1x512x128.size a := by
  show i ∈ ((View.whole main_v6).slice (win0_4.rect t)).set ↔ _
  rw [View.set_slice_whole, Rect.mem_set_unit]
  exact Iff.rfl

/-- The 32 blocks tile the array: row t of the array is point t's block. -/
theorem cover4 (i : S32x512x128.Idx) :
    ∃ t : Fin cfg0.N, (cfg0.win 4).flush t = true ∧ i ∈ ((cfg0.win 4).blk t).view.set := by
  have h0 : (i 0).val < 32 := (i 0).isLt
  have h1 : (i 1).val < 512 := (i 1).isLt
  have h2 : (i 2).val < 128 := (i 2).isLt
  obtain ⟨-, -, -, -, -, -, -, -, -, -, -, e0', e1, e2⟩ := idx_facts ⟨(i 0).val, Nat.lt_of_lt_of_eq h0 N_0.symm⟩
  have e0 : win0_4.index ⟨(i 0).val, Nat.lt_of_lt_of_eq h0 N_0.symm⟩ (0 : Fin 3) = (i 0).val := e0'
  clear e0'
  refine ⟨⟨(i 0).val, Nat.lt_of_lt_of_eq h0 N_0.symm⟩, flush0_4 _, ?_⟩
  rw [mem_blk4]
  intro a
  match a with
  | ⟨0, _⟩ => exact ⟨by show win0_4.index _ (0 : Fin 3) * 1 ≤ (i 0).val; omega, by show (i 0).val < win0_4.index _ (0 : Fin 3) * 1 + 1; omega⟩
  | ⟨1, _⟩ => exact ⟨by show win0_4.index _ (1 : Fin 3) * 512 ≤ (i 1).val; omega, by show (i 1).val < win0_4.index _ (1 : Fin 3) * 512 + 512; omega⟩
  | ⟨2, _⟩ => exact ⟨by show win0_4.index _ (2 : Fin 3) * 128 ≤ (i 2).val; omega, by show (i 2).val < win0_4.index _ (2 : Fin 3) * 128 + 128; omega⟩

/-- The region's output array after the run. -/
theorem final4 (c : Dev nD) :
    (dats m 0 c).arrAt 4 cfg0.N = resultRows (argK m c) (argPe m c) (argWd m c) (argWs m c) :=
  (dats m 0 c).arrAt_eq_of_cover 4 _ (fun t _ => flushed_eq m c t) cover4

/-! ## The host reshape after the region, and the run -/

/-- The result buffer after @main's last line: the region's output array with its leading axis regrouped 32 → 2 × 16,
    which is the shared result function of the four arguments. -/
theorem tail_eq (c : Dev nD) :
    (Pipeline.afterTail₀ cfgs (dats m) 0 (V0 m) [hostOps1] c main_v7 : S2x16x512x128.Idx → EReal)
      = G (argK m c) (argPe m c) (argWd m c) (argWs m c) := by
  unfold Pipeline.afterTail₀
  show StableHlo.after hostOps1 _ (Proc.devRef .tc main_v7) = _
  after_results
  have hw := (Pipeline.withArrays_arr spec0 launch0.win.arr_inj c (V0 m c) (fun w => (dats m 0 c).arrAt w cfg0.N) 4).trans
    (final4 m c)
  funext j
  have h0 : (j 0).val < 2 := (j 0).isLt
  have h1 : (j 1).val < 16 := (j 1).isLt
  have h2 : (j 2).val < 512 := (j 2).isLt
  have h3 : (j 3).val < 128 := (j 3).isLt
  refine (shapeCast_apply _ shapeCasts_S32x512x128_S2x16x512x128 j
    (ix3 ⟨16 * (j 0).val + (j 1).val, by omega⟩ ⟨(j 2).val, h2⟩ ⟨(j 3).val, h3⟩) ?_).trans ?_
  · rw [Shape.rowMajor_val_three, Shape.rowMajor_val_four]
    show ((16 * (j 0).val + (j 1).val) * 512 + (j 2).val) * 128 + (j 3).val
      = ((((j 0).val * 16 + (j 1).val) * 512 + (j 2).val) * 128 + (j 3).val)
    omega
  · refine (congrFun hw _).trans ?_
    show G (argK m c) (argPe m c) (argWd m c) (argWs m c) _ = G (argK m c) (argPe m c) (argWd m c) (argWs m c) j
    refine congrArg (G (argK m c) (argPe m c) (argWd m c) (argWs m c)) ?_
    funext a; apply Fin.ext
    match a with
    | ⟨0, _⟩ => show (16 * (j 0).val + (j 1).val) / 16 = (j 0).val; omega
    | ⟨1, _⟩ => show (16 * (j 0).val + (j 1).val) % 16 = (j 1).val; omega
    | ⟨2, _⟩ => rfl
    | ⟨3, _⟩ => rfl

/-- Every weakly fair execution of the kernel's @main terminates with the result buffer at the shared result function
    of the four argument arrays, and the arguments unchanged. -/
theorem run : θ_run defs (onTc (τ := τ) (main (F := Ideal))) ⟨m, fun _ => 0, ρ⟩ fun r => ∀ c : Dev nD,
      r.2.mem ((c : Thread nD τ).loc main_v7) = G (argK m c) (argPe m c) (argWd m c) (argWs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.ArrayValue

end
-- ==== Proof.RefMerge.lean ====
/-
  The reference's result, read one operation at a time, is the shared function of the four argument arrays: output
  window 0 is the merge of an all-zero window, which is zero, and output window w ≥ 1 the projected merge of key
  window w − 1, whose row r is row 16·(w − 1) + r of the keys plus row r of the positional table.

  The steps. The index array of the gather holds the word 16·w + l at (w, l): the multiply and add stay far below
  2³¹, so the wrap of negative indices never fires and the clamp into the 8192 rows changes nothing. The gather then
  reads key row 16·w + l, and the concatenation puts a zero window before the 511 windows so read. Each of the five
  stages, read at an index, is silu of a sum over 256 entries: two neighbouring rows of the stage before, side by
  side, against the transpose of that stage's weight matrix; five such blocks in a chain are the merge of the first
  (each row of a stage needs only the two rows under it). The projection and the last reshape finish.
-/
import proofs.«418411_j86174223827251_3_alg».proof.Proof.Gen.ReferenceIdeal.Read
import proofs.«418411_j86174223827251_3_alg».proof.Proof.Merge
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Predicate
import Idealize.ShloMosaic.PureOps.Ideal.Laws

noncomputable section

namespace Cert.ReferenceIdeal.RefValue

open Idealize.ShloMosaic Idealize.ShloMosaic.ValueIdx Cert.ReferenceIdeal Cert.ReferenceIdeal.Read Cert.Merge

/-! ## The row word -/

/-- The row word 16·w + l built in 32-bit arithmetic (16 times the window number plus the row in the window), with the
    wrap of a negative index, which never fires: the word is below 2³¹. -/
theorem word_eval (w : Fin 511) (l : Fin 32) :
    Scalar.select (IntOp.cmpi .slt (IntOp.addi (IntOp.muli 16#32 (BitVec.ofNat 32 w.val)) (BitVec.ofNat 32 l.val)) 0#32)
        (IntOp.addi (IntOp.addi (IntOp.muli 16#32 (BitVec.ofNat 32 w.val)) (BitVec.ofNat 32 l.val)) 8192#32)
        (IntOp.addi (IntOp.muli 16#32 (BitVec.ofNat 32 w.val)) (BitVec.ofNat 32 l.val))
      = BitVec.ofNat 32 (16 * w.val + l.val) := by
  have hw := w.isLt
  have hl := l.isLt
  have e : IntOp.addi (IntOp.muli 16#32 (BitVec.ofNat 32 w.val)) (BitVec.ofNat 32 l.val) = BitVec.ofNat 32 (16 * w.val + l.val) := by
    apply BitVec.eq_of_toNat_eq
    simp only [IntOp.addi, IntOp.muli, BitVec.toNat_add, BitVec.toNat_mul, BitVec.toNat_ofNat]
    omega
  rw [e]
  have hn : ¬ IntOp.cmpi .slt (BitVec.ofNat 32 (16 * w.val + l.val)) 0#32 = 1#1 := by
    rw [StableHlo.Predicate.slt_iff_toNat (by simp only [BitVec.toNat_ofNat]; omega) (by decide)]
    simp
  exact if_neg hn

/-- Read signed and clamped into the 8192 key rows, the word is the row 16·w + l itself: the last window ends at row 8191. -/
theorem word_row (w : Fin 511) (l : Fin 32) :
    min (BitVec.ofNat 32 (16 * w.val + l.val)).toInt.toNat (8192 - 1) = 16 * w.val + l.val := by
  have hw := w.isLt
  have hl := l.isLt
  rw [StableHlo.Predicate.toInt_ofNat_small _ (by omega)]
  simp only [Int.toNat_natCast]
  omega

/-- The index array at (w, l, 0) holds the row word. -/
theorem index_word (w : Fin 511) (l : Fin 32) :
    val_main_v14 (F := Ideal) (ix3 w l (0 : Fin 1)) = BitVec.ofNat 32 (16 * w.val + l.val) := by
  rw [val_main_v14_apply, val_main_v13_apply, val_main_v10_apply, val_main_v12_apply, val_main_v8_apply, val_main_v9_apply,
    val_main_c_0_apply, val_main_v11_apply, val_main_c_1_apply, val_main_v6_apply, val_main_v7_apply, val_main_v3_apply,
    val_main_v5_apply, val_main_v2_apply, val_main_v1_apply, val_main_c_apply, val_main_v4_apply, val_main_v0_apply]
  exact word_eval w l

/-! ## The gather of key rows -/

/-- The gather along the row axis read at an index: batch entry, head and lane pass through, and the row is the start
    index at (w, l, 0), read signed and clamped into the rows. -/
theorem gather_read {α : Type} (x : S2x16x8192x128.Idx → α) (idx : IVec S511x32x1 32)
    (b : Fin 2) (h : Fin 16) (w : Fin 511) (l : Fin 32) (d : Fin 128) (n : ℕ) (hn : n < 8192)
    (hidx : min (idx (ix3 w l (0 : Fin 1))).toInt.toNat (8192 - 1) = n) :
    Host.gather gather_S2x16x8192x128_S511x32x1_S2x16x511x32x128_014_2_n_n_2_2_2161128 x idx (ix5 b h w l d)
      = x (ix4 b h ⟨n, hn⟩ d) := by
  unfold Host.gather
  congr 1
  funext a
  refine Fin.ext ?_
  show gather_S2x16x8192x128_S511x32x1_S2x16x511x32x128_014_2_n_n_2_2_2161128.start (ix5 b h w l d) idx a
    + gather_S2x16x8192x128_S511x32x1_S2x16x511x32x128_014_2_n_n_2_2_2161128.batchCoord (ix5 b h w l d) a
    + gather_S2x16x8192x128_S511x32x1_S2x16x511x32x128_014_2_n_n_2_2_2161128.offCoord (ix5 b h w l d) a = _
  rw [GatherDims.batchCoord_eq_zero _ _ _ List.not_mem_nil, Nat.add_zero]
  match a with
  | ⟨0, _⟩ =>
    show gather_S2x16x8192x128_S511x32x1_S2x16x511x32x128_014_2_n_n_2_2_2161128.start (ix5 b h w l d) idx 0
      + gather_S2x16x8192x128_S511x32x1_S2x16x511x32x128_014_2_n_n_2_2_2161128.offCoord (ix5 b h w l d) 0 = b.val
    unfold GatherDims.start GatherDims.offCoord
    rw [dif_neg (by decide), dif_pos (by decide), Nat.zero_add]
    rfl
  | ⟨1, _⟩ =>
    show gather_S2x16x8192x128_S511x32x1_S2x16x511x32x128_014_2_n_n_2_2_2161128.start (ix5 b h w l d) idx 1
      + gather_S2x16x8192x128_S511x32x1_S2x16x511x32x128_014_2_n_n_2_2_2161128.offCoord (ix5 b h w l d) 1 = h.val
    unfold GatherDims.start GatherDims.offCoord
    rw [dif_neg (by decide), dif_pos (by decide), Nat.zero_add]
    rfl
  | ⟨2, _⟩ =>
    show gather_S2x16x8192x128_S511x32x1_S2x16x511x32x128_014_2_n_n_2_2_2161128.start (ix5 b h w l d) idx 2
      + gather_S2x16x8192x128_S511x32x1_S2x16x511x32x128_014_2_n_n_2_2_2161128.offCoord (ix5 b h w l d) 2 = n
    rw [GatherDims.offCoord_eq_zero _ _ _ (by decide), Nat.add_zero]
    unfold GatherDims.start
    rw [dif_pos (by decide)]
    have hsi : gather_S2x16x8192x128_S511x32x1_S2x16x511x32x128_014_2_n_n_2_2_2161128.siIdx (ix5 b h w l d)
        ⟨List.idxOf (2 : Fin 4) gather_S2x16x8192x128_S511x32x1_S2x16x511x32x128_014_2_n_n_2_2_2161128.startIndexMap,
          List.idxOf_lt_length_iff.2 (by decide)⟩ = ix3 w l (0 : Fin 1) := by
      funext c; refine Fin.ext ?_
      match c with
      | ⟨0, _⟩ => rfl
      | ⟨1, _⟩ => rfl
      | ⟨2, _⟩ => rfl
    rw [hsi]
    exact hidx
  | ⟨3, _⟩ =>
    show gather_S2x16x8192x128_S511x32x1_S2x16x511x32x128_014_2_n_n_2_2_2161128.start (ix5 b h w l d) idx 3
      + gather_S2x16x8192x128_S511x32x1_S2x16x511x32x128_014_2_n_n_2_2_2161128.offCoord (ix5 b h w l d) 3 = d.val
    unfold GatherDims.start GatherDims.offCoord
    rw [dif_neg (by decide), dif_pos (by decide), Nat.zero_add]
    rfl

/-- Window w of the gathered keys: row l is key row 16·w + l. -/
theorem keys_read (x0 : (⟨S2x16x8192x128, .f32⟩ : BufTy).Contents (Elt Ideal))
    (b : Fin 2) (h : Fin 16) (w : Fin 511) (l : Fin 32) (d : Fin 128) :
    val_main_v15 (F := Ideal) x0 (ix5 b h w l d)
      = x0 (ix4 b h ⟨16 * w.val + l.val, by have := w.isLt; have := l.isLt; omega⟩ d) := by
  unfold val_main_v15
  exact gather_read x0 _ b h w l d _ _ (by rw [index_word, word_row])

/-! ## The windows: a zero window before the 511 real ones -/

/-- Window 0 of the concatenation is the zero window. -/
theorem window_zero (x0 : (⟨S2x16x8192x128, .f32⟩ : BufTy).Contents (Elt Ideal)) (x1 : (⟨S32x128, .f32⟩ : BufTy).Contents (Elt Ideal))
    (b : Fin 2) (h : Fin 16) (l : Fin 32) (d : Fin 128) :
    val_main_v21 (F := Ideal) x0 x1 (ix5 b h (0 : Fin 512) l d) = 0 := by
  unfold val_main_v21
  rw [concatenate_pair_apply_left (t := S2x16x512x32x128) (s₁ := S2x16x1x32x128) (s₂ := S2x16x511x32x128) (2 : Fin S2x16x512x32x128.rank) _ _ _
    (ix5 b h (0 : Fin 512) l d) rfl (ix5 b h (0 : Fin 1) l d)
    (fun a => by
      match a with
      | ⟨0, _⟩ => rfl
      | ⟨1, _⟩ => rfl
      | ⟨2, _⟩ => rfl
      | ⟨3, _⟩ => rfl
      | ⟨4, _⟩ => rfl)]
  rw [val_main_v20_apply, val_main_cst_apply]
  exact Ideal.ofBits_zero_f32

/-- Window w + 1 of the concatenation is key window w plus the positional table. -/
theorem window_succ (x0 : (⟨S2x16x8192x128, .f32⟩ : BufTy).Contents (Elt Ideal)) (x1 : (⟨S32x128, .f32⟩ : BufTy).Contents (Elt Ideal))
    (b : Fin 2) (h : Fin 16) (w : Fin 511) (l : Fin 32) (d : Fin 128) :
    val_main_v21 (F := Ideal) x0 x1 (ix5 b h (⟨w.val + 1, by have := w.isLt; omega⟩ : Fin 512) l d)
      = x0 (ix4 b h ⟨16 * w.val + l.val, by have := w.isLt; have := l.isLt; omega⟩ d) + x1 (ix2 l d) := by
  unfold val_main_v21
  rw [concatenate_pair_apply_right (t := S2x16x512x32x128) (s₁ := S2x16x1x32x128) (s₂ := S2x16x511x32x128) (2 : Fin S2x16x512x32x128.rank) _ _ _
    (ix5 b h (⟨w.val + 1, by have := w.isLt; omega⟩ : Fin 512) l d) rfl rfl (ix5 b h w l d)
    (fun a ha => by
      match a with
      | ⟨0, _⟩ => rfl
      | ⟨1, _⟩ => rfl
      | ⟨2, _⟩ => exact absurd rfl ha
      | ⟨3, _⟩ => rfl
      | ⟨4, _⟩ => rfl)
    (by show w.val + 1 = w.val + 1; rfl)]
  have e : idx_main_v16 (idx_main_v17 (ix5 b h w l d)) = ix2 l d := funext fun a => by
    match a with
    | ⟨0, _⟩ => rfl
    | ⟨1, _⟩ => rfl
  rw [val_main_v18_apply, keys_read, val_main_v17_apply, val_main_v16_apply, e]
  rfl

/-! ## The merge stages -/

/-- The reference spells silu y as y · (1 / (1 + e^(−y))), the ones being the float pattern of 1. -/
theorem silu_read (y : EReal) :
    FloatOps.mulf (F := Ideal) (φ := .f32) y (FloatOps.hostDivf (FloatOps.ofBits .f32 0x3F800000#32)
      (FloatOps.addf (FloatOps.ofBits .f32 0x3F800000#32) (FloatOps.hostUnary .exp (FloatOps.hostNegf y)))) = silu y := by
  show y * Ideal.div (Ideal.ofBits .f32 0x3F800000#32) (Ideal.ofBits .f32 0x3F800000#32 + Ideal.exp (-y)) = y * Ideal.logistic y
  rw [Ideal.ofBits_one_f32]
  rfl

/-- The first stage read at an index: the 16 rows it leaves are silu of the 32 rows before it, taken in pairs side by
    side, against the transpose of weight matrix 0. -/
theorem stage0_read (x0 : (⟨S2x16x8192x128, .f32⟩ : BufTy).Contents (Elt Ideal)) (x1 : (⟨S32x128, .f32⟩ : BufTy).Contents (Elt Ideal))
    (x2 : (⟨S5x128x256, .f32⟩ : BufTy).Contents (Elt Ideal))
    (b : Fin 2) (h : Fin 16) (w : Fin 512) (r : Fin 16) (o : Fin 128) :
    val_main_v26 (F := Ideal) x0 x1 x2 (ix5 b h w r o)
      = silu (∑ c : Fin 256, val_main_v21 (F := Ideal) x0 x1 (ix5 b h w ⟨2 * r.val + c.val / 128, by have := c.isLt; have := r.isLt; omega⟩ (lane c))
          * x2 (ix3 (0 : Fin 5) o c)) := by
  have hb := b.isLt; have hh := h.isLt; have hw := w.isLt; have hr := r.isLt
  have el : ∀ c : Fin 256, idx_main_v22 (lidx_main_v25 (ix5 b h w r o) c)
      = ix5 b h w ⟨2 * r.val + c.val / 128, by have := c.isLt; omega⟩ (lane c) := fun c => funext fun a => Fin.ext (by
    have hc := c.isLt
    match a with
    | ⟨0, _⟩ => show ((((b.val * 16 + h.val) * 512 + w.val) * 16 + r.val) * 256 + c.val) / 33554432 = b.val; omega
    | ⟨1, _⟩ => show ((((b.val * 16 + h.val) * 512 + w.val) * 16 + r.val) * 256 + c.val) / 2097152 % 16 = h.val; omega
    | ⟨2, _⟩ => show ((((b.val * 16 + h.val) * 512 + w.val) * 16 + r.val) * 256 + c.val) / 4096 % 512 = w.val; omega
    | ⟨3, _⟩ => show ((((b.val * 16 + h.val) * 512 + w.val) * 16 + r.val) * 256 + c.val) / 128 % 32 = 2 * r.val + c.val / 128; omega
    | ⟨4, _⟩ => show ((((b.val * 16 + h.val) * 512 + w.val) * 16 + r.val) * 256 + c.val) % 128 = c.val % 128; omega)
  have er : ∀ c : Fin 256, idx_main_v23 (idx_main_v24 (ridx_main_v25 (ix5 b h w r o) c)) = ix3 (0 : Fin 5) o c :=
    fun c => funext fun a => Fin.ext (by
      have hc := c.isLt; have ho := o.isLt
      match a with
      | ⟨0, _⟩ => rfl
      | ⟨1, _⟩ => show (o.val * 256 + c.val) / 256 % 128 = o.val; omega
      | ⟨2, _⟩ => show (o.val * 256 + c.val) % 256 = c.val; omega)
  have hs : ∀ c : Fin 256, val_main_v22 (F := Ideal) x0 x1 (lidx_main_v25 (ix5 b h w r o) c) * val_main_v24 (F := Ideal) x2 (ridx_main_v25 (ix5 b h w r o) c)
      = val_main_v21 (F := Ideal) x0 x1 (ix5 b h w ⟨2 * r.val + c.val / 128, by have := c.isLt; omega⟩ (lane c)) * x2 (ix3 (0 : Fin 5) o c) := fun c => by
    rw [val_main_v22_apply, val_main_v24_apply, val_main_v23_apply, el c, er c]
  rw [val_main_v26_apply, val_main_call0_v5_apply, val_main_call0_v4_apply, val_main_call0_cst_0_apply, val_main_call0_v3_apply,
    val_main_call0_v2_apply, val_main_call0_cst_apply, val_main_call0_v1_apply, val_main_call0_v0_apply, val_main_v25_apply,
    Finset.sum_congr rfl (fun c _ => hs c)]
  exact silu_read _

/-- The second stage read at an index: the 8 rows it leaves are silu of the 16 rows before it, taken in pairs side by
    side, against the transpose of weight matrix 1. -/
theorem stage1_read (x0 : (⟨S2x16x8192x128, .f32⟩ : BufTy).Contents (Elt Ideal)) (x1 : (⟨S32x128, .f32⟩ : BufTy).Contents (Elt Ideal))
    (x2 : (⟨S5x128x256, .f32⟩ : BufTy).Contents (Elt Ideal))
    (b : Fin 2) (h : Fin 16) (w : Fin 512) (r : Fin 8) (o : Fin 128) :
    val_main_v31 (F := Ideal) x0 x1 x2 (ix5 b h w r o)
      = silu (∑ c : Fin 256, val_main_v26 (F := Ideal) x0 x1 x2 (ix5 b h w ⟨2 * r.val + c.val / 128, by have := c.isLt; have := r.isLt; omega⟩ (lane c))
          * x2 (ix3 (1 : Fin 5) o c)) := by
  have hb := b.isLt; have hh := h.isLt; have hw := w.isLt; have hr := r.isLt
  have el : ∀ c : Fin 256, idx_main_v27 (lidx_main_v30 (ix5 b h w r o) c)
      = ix5 b h w ⟨2 * r.val + c.val / 128, by have := c.isLt; omega⟩ (lane c) := fun c => funext fun a => Fin.ext (by
    have hc := c.isLt
    match a with
    | ⟨0, _⟩ => show ((((b.val * 16 + h.val) * 512 + w.val) * 8 + r.val) * 256 + c.val) / 16777216 = b.val; omega
    | ⟨1, _⟩ => show ((((b.val * 16 + h.val) * 512 + w.val) * 8 + r.val) * 256 + c.val) / 1048576 % 16 = h.val; omega
    | ⟨2, _⟩ => show ((((b.val * 16 + h.val) * 512 + w.val) * 8 + r.val) * 256 + c.val) / 2048 % 512 = w.val; omega
    | ⟨3, _⟩ => show ((((b.val * 16 + h.val) * 512 + w.val) * 8 + r.val) * 256 + c.val) / 128 % 16 = 2 * r.val + c.val / 128; omega
    | ⟨4, _⟩ => show ((((b.val * 16 + h.val) * 512 + w.val) * 8 + r.val) * 256 + c.val) % 128 = c.val % 128; omega)
  have er : ∀ c : Fin 256, idx_main_v28 (idx_main_v29 (ridx_main_v30 (ix5 b h w r o) c)) = ix3 (1 : Fin 5) o c :=
    fun c => funext fun a => Fin.ext (by
      have hc := c.isLt; have ho := o.isLt
      match a with
      | ⟨0, _⟩ => rfl
      | ⟨1, _⟩ => show (o.val * 256 + c.val) / 256 % 128 = o.val; omega
      | ⟨2, _⟩ => show (o.val * 256 + c.val) % 256 = c.val; omega)
  have hs : ∀ c : Fin 256, val_main_v27 (F := Ideal) x0 x1 x2 (lidx_main_v30 (ix5 b h w r o) c) * val_main_v29 (F := Ideal) x2 (ridx_main_v30 (ix5 b h w r o) c)
      = val_main_v26 (F := Ideal) x0 x1 x2 (ix5 b h w ⟨2 * r.val + c.val / 128, by have := c.isLt; omega⟩ (lane c)) * x2 (ix3 (1 : Fin 5) o c) := fun c => by
    rw [val_main_v27_apply, val_main_v29_apply, val_main_v28_apply, el c, er c]
  rw [val_main_v31_apply, val_main_call1_v5_apply, val_main_call1_v4_apply, val_main_call1_cst_0_apply, val_main_call1_v3_apply,
    val_main_call1_v2_apply, val_main_call1_cst_apply, val_main_call1_v1_apply, val_main_call1_v0_apply, val_main_v30_apply,
    Finset.sum_congr rfl (fun c _ => hs c)]
  exact silu_read _

/-- The third stage read at an index: the 4 rows it leaves are silu of the 8 rows before it, taken in pairs side by
    side, against the transpose of weight matrix 2. -/
theorem stage2_read (x0 : (⟨S2x16x8192x128, .f32⟩ : BufTy).Contents (Elt Ideal)) (x1 : (⟨S32x128, .f32⟩ : BufTy).Contents (Elt Ideal))
    (x2 : (⟨S5x128x256, .f32⟩ : BufTy).Contents (Elt Ideal))
    (b : Fin 2) (h : Fin 16) (w : Fin 512) (r : Fin 4) (o : Fin 128) :
    val_main_v36 (F := Ideal) x0 x1 x2 (ix5 b h w r o)
      = silu (∑ c : Fin 256, val_main_v31 (F := Ideal) x0 x1 x2 (ix5 b h w ⟨2 * r.val + c.val / 128, by have := c.isLt; have := r.isLt; omega⟩ (lane c))
          * x2 (ix3 (2 : Fin 5) o c)) := by
  have hb := b.isLt; have hh := h.isLt; have hw := w.isLt; have hr := r.isLt
  have el : ∀ c : Fin 256, idx_main_v32 (lidx_main_v35 (ix5 b h w r o) c)
      = ix5 b h w ⟨2 * r.val + c.val / 128, by have := c.isLt; omega⟩ (lane c) := fun c => funext fun a => Fin.ext (by
    have hc := c.isLt
    match a with
    | ⟨0, _⟩ => show ((((b.val * 16 + h.val) * 512 + w.val) * 4 + r.val) * 256 + c.val) / 8388608 = b.val; omega
    | ⟨1, _⟩ => show ((((b.val * 16 + h.val) * 512 + w.val) * 4 + r.val) * 256 + c.val) / 524288 % 16 = h.val; omega
    | ⟨2, _⟩ => show ((((b.val * 16 + h.val) * 512 + w.val) * 4 + r.val) * 256 + c.val) / 1024 % 512 = w.val; omega
    | ⟨3, _⟩ => show ((((b.val * 16 + h.val) * 512 + w.val) * 4 + r.val) * 256 + c.val) / 128 % 8 = 2 * r.val + c.val / 128; omega
    | ⟨4, _⟩ => show ((((b.val * 16 + h.val) * 512 + w.val) * 4 + r.val) * 256 + c.val) % 128 = c.val % 128; omega)
  have er : ∀ c : Fin 256, idx_main_v33 (idx_main_v34 (ridx_main_v35 (ix5 b h w r o) c)) = ix3 (2 : Fin 5) o c :=
    fun c => funext fun a => Fin.ext (by
      have hc := c.isLt; have ho := o.isLt
      match a with
      | ⟨0, _⟩ => rfl
      | ⟨1, _⟩ => show (o.val * 256 + c.val) / 256 % 128 = o.val; omega
      | ⟨2, _⟩ => show (o.val * 256 + c.val) % 256 = c.val; omega)
  have hs : ∀ c : Fin 256, val_main_v32 (F := Ideal) x0 x1 x2 (lidx_main_v35 (ix5 b h w r o) c) * val_main_v34 (F := Ideal) x2 (ridx_main_v35 (ix5 b h w r o) c)
      = val_main_v31 (F := Ideal) x0 x1 x2 (ix5 b h w ⟨2 * r.val + c.val / 128, by have := c.isLt; omega⟩ (lane c)) * x2 (ix3 (2 : Fin 5) o c) := fun c => by
    rw [val_main_v32_apply, val_main_v34_apply, val_main_v33_apply, el c, er c]
  rw [val_main_v36_apply, val_main_call2_v5_apply, val_main_call2_v4_apply, val_main_call2_cst_0_apply, val_main_call2_v3_apply,
    val_main_call2_v2_apply, val_main_call2_cst_apply, val_main_call2_v1_apply, val_main_call2_v0_apply, val_main_v35_apply,
    Finset.sum_congr rfl (fun c _ => hs c)]
  exact silu_read _

/-- The fourth stage read at an index: the 2 rows it leaves are silu of the 4 rows before it, taken in pairs side by
    side, against the transpose of weight matrix 3. -/
theorem stage3_read (x0 : (⟨S2x16x8192x128, .f32⟩ : BufTy).Contents (Elt Ideal)) (x1 : (⟨S32x128, .f32⟩ : BufTy).Contents (Elt Ideal))
    (x2 : (⟨S5x128x256, .f32⟩ : BufTy).Contents (Elt Ideal))
    (b : Fin 2) (h : Fin 16) (w : Fin 512) (r : Fin 2) (o : Fin 128) :
    val_main_v41 (F := Ideal) x0 x1 x2 (ix5 b h w r o)
      = silu (∑ c : Fin 256, val_main_v36 (F := Ideal) x0 x1 x2 (ix5 b h w ⟨2 * r.val + c.val / 128, by have := c.isLt; have := r.isLt; omega⟩ (lane c))
          * x2 (ix3 (3 : Fin 5) o c)) := by
  have hb := b.isLt; have hh := h.isLt; have hw := w.isLt; have hr := r.isLt
  have el : ∀ c : Fin 256, idx_main_v37 (lidx_main_v40 (ix5 b h w r o) c)
      = ix5 b h w ⟨2 * r.val + c.val / 128, by have := c.isLt; omega⟩ (lane c) := fun c => funext fun a => Fin.ext (by
    have hc := c.isLt
    match a with
    | ⟨0, _⟩ => show ((((b.val * 16 + h.val) * 512 + w.val) * 2 + r.val) * 256 + c.val) / 4194304 = b.val; omega
    | ⟨1, _⟩ => show ((((b.val * 16 + h.val) * 512 + w.val) * 2 + r.val) * 256 + c.val) / 262144 % 16 = h.val; omega
    | ⟨2, _⟩ => show ((((b.val * 16 + h.val) * 512 + w.val) * 2 + r.val) * 256 + c.val) / 512 % 512 = w.val; omega
    | ⟨3, _⟩ => show ((((b.val * 16 + h.val) * 512 + w.val) * 2 + r.val) * 256 + c.val) / 128 % 4 = 2 * r.val + c.val / 128; omega
    | ⟨4, _⟩ => show ((((b.val * 16 + h.val) * 512 + w.val) * 2 + r.val) * 256 + c.val) % 128 = c.val % 128; omega)
  have er : ∀ c : Fin 256, idx_main_v38 (idx_main_v39 (ridx_main_v40 (ix5 b h w r o) c)) = ix3 (3 : Fin 5) o c :=
    fun c => funext fun a => Fin.ext (by
      have hc := c.isLt; have ho := o.isLt
      match a with
      | ⟨0, _⟩ => rfl
      | ⟨1, _⟩ => show (o.val * 256 + c.val) / 256 % 128 = o.val; omega
      | ⟨2, _⟩ => show (o.val * 256 + c.val) % 256 = c.val; omega)
  have hs : ∀ c : Fin 256, val_main_v37 (F := Ideal) x0 x1 x2 (lidx_main_v40 (ix5 b h w r o) c) * val_main_v39 (F := Ideal) x2 (ridx_main_v40 (ix5 b h w r o) c)
      = val_main_v36 (F := Ideal) x0 x1 x2 (ix5 b h w ⟨2 * r.val + c.val / 128, by have := c.isLt; omega⟩ (lane c)) * x2 (ix3 (3 : Fin 5) o c) := fun c => by
    rw [val_main_v37_apply, val_main_v39_apply, val_main_v38_apply, el c, er c]
  rw [val_main_v41_apply, val_main_call3_v5_apply, val_main_call3_v4_apply, val_main_call3_cst_0_apply, val_main_call3_v3_apply,
    val_main_call3_v2_apply, val_main_call3_cst_apply, val_main_call3_v1_apply, val_main_call3_v0_apply, val_main_v40_apply,
    Finset.sum_congr rfl (fun c _ => hs c)]
  exact silu_read _

/-- The fifth stage read at an index: the 1 rows it leaves are silu of the 2 rows before it, taken in pairs side by
    side, against the transpose of weight matrix 4. -/
theorem stage4_read (x0 : (⟨S2x16x8192x128, .f32⟩ : BufTy).Contents (Elt Ideal)) (x1 : (⟨S32x128, .f32⟩ : BufTy).Contents (Elt Ideal))
    (x2 : (⟨S5x128x256, .f32⟩ : BufTy).Contents (Elt Ideal))
    (b : Fin 2) (h : Fin 16) (w : Fin 512) (r : Fin 1) (o : Fin 128) :
    val_main_v46 (F := Ideal) x0 x1 x2 (ix5 b h w r o)
      = silu (∑ c : Fin 256, val_main_v41 (F := Ideal) x0 x1 x2 (ix5 b h w ⟨2 * r.val + c.val / 128, by have := c.isLt; have := r.isLt; omega⟩ (lane c))
          * x2 (ix3 (4 : Fin 5) o c)) := by
  have hb := b.isLt; have hh := h.isLt; have hw := w.isLt; have hr := r.isLt
  have el : ∀ c : Fin 256, idx_main_v42 (lidx_main_v45 (ix5 b h w r o) c)
      = ix5 b h w ⟨2 * r.val + c.val / 128, by have := c.isLt; omega⟩ (lane c) := fun c => funext fun a => Fin.ext (by
    have hc := c.isLt
    match a with
    | ⟨0, _⟩ => show ((((b.val * 16 + h.val) * 512 + w.val) * 1 + r.val) * 256 + c.val) / 2097152 = b.val; omega
    | ⟨1, _⟩ => show ((((b.val * 16 + h.val) * 512 + w.val) * 1 + r.val) * 256 + c.val) / 131072 % 16 = h.val; omega
    | ⟨2, _⟩ => show ((((b.val * 16 + h.val) * 512 + w.val) * 1 + r.val) * 256 + c.val) / 256 % 512 = w.val; omega
    | ⟨3, _⟩ => show ((((b.val * 16 + h.val) * 512 + w.val) * 1 + r.val) * 256 + c.val) / 128 % 2 = 2 * r.val + c.val / 128; omega
    | ⟨4, _⟩ => show ((((b.val * 16 + h.val) * 512 + w.val) * 1 + r.val) * 256 + c.val) % 128 = c.val % 128; omega)
  have er : ∀ c : Fin 256, idx_main_v43 (idx_main_v44 (ridx_main_v45 (ix5 b h w r o) c)) = ix3 (4 : Fin 5) o c :=
    fun c => funext fun a => Fin.ext (by
      have hc := c.isLt; have ho := o.isLt
      match a with
      | ⟨0, _⟩ => rfl
      | ⟨1, _⟩ => show (o.val * 256 + c.val) / 256 % 128 = o.val; omega
      | ⟨2, _⟩ => show (o.val * 256 + c.val) % 256 = c.val; omega)
  have hs : ∀ c : Fin 256, val_main_v42 (F := Ideal) x0 x1 x2 (lidx_main_v45 (ix5 b h w r o) c) * val_main_v44 (F := Ideal) x2 (ridx_main_v45 (ix5 b h w r o) c)
      = val_main_v41 (F := Ideal) x0 x1 x2 (ix5 b h w ⟨2 * r.val + c.val / 128, by have := c.isLt; omega⟩ (lane c)) * x2 (ix3 (4 : Fin 5) o c) := fun c => by
    rw [val_main_v42_apply, val_main_v44_apply, val_main_v43_apply, el c, er c]
  rw [val_main_v46_apply, val_main_call4_v5_apply, val_main_call4_v4_apply, val_main_call4_cst_0_apply, val_main_call4_v3_apply,
    val_main_call4_v2_apply, val_main_call4_cst_apply, val_main_call4_v1_apply, val_main_call4_v0_apply, val_main_v45_apply,
    Finset.sum_congr rfl (fun c _ => hs c)]
  exact silu_read _

/-! ## The projection and the last reshape -/

/-- The result at (b, h, w, o): the single row the five stages leave for window w, against the transpose of the
    projection matrix. -/
theorem proj_read (x0 : (⟨S2x16x8192x128, .f32⟩ : BufTy).Contents (Elt Ideal)) (x1 : (⟨S32x128, .f32⟩ : BufTy).Contents (Elt Ideal))
    (x2 : (⟨S5x128x256, .f32⟩ : BufTy).Contents (Elt Ideal)) (x3 : (⟨S128x128, .f32⟩ : BufTy).Contents (Elt Ideal))
    (b : Fin 2) (h : Fin 16) (w : Fin 512) (o : Fin 128) :
    val_main_v48 (F := Ideal) x0 x1 x2 x3 (ix4 b h w o)
      = proj (wsT x3) (fun c => val_main_v46 (F := Ideal) x0 x1 x2 (ix5 b h w (0 : Fin 1) c)) o := by
  have hb := b.isLt; have hh := h.isLt; have hw := w.isLt; have ho := o.isLt
  have el : ∀ c : Fin 128, lidx_main_v47 (idx_main_v48 (ix4 b h w o)) c = ix5 b h w (0 : Fin 1) c := fun c => funext fun a => Fin.ext (by
    match a with
    | ⟨0, _⟩ => show (((b.val * 16 + h.val) * 512 + w.val) * 128 + o.val) / 1048576 = b.val; omega
    | ⟨1, _⟩ => show (((b.val * 16 + h.val) * 512 + w.val) * 128 + o.val) / 65536 % 16 = h.val; omega
    | ⟨2, _⟩ => show (((b.val * 16 + h.val) * 512 + w.val) * 128 + o.val) / 128 % 512 = w.val; omega
    | ⟨3, _⟩ => rfl
    | ⟨4, _⟩ => rfl)
  have er : ∀ c : Fin 128, ridx_main_v47 (idx_main_v48 (ix4 b h w o)) c = ix2 o c := fun c => funext fun a => Fin.ext (by
    match a with
    | ⟨0, _⟩ => show (((b.val * 16 + h.val) * 512 + w.val) * 128 + o.val) % 128 = o.val; omega
    | ⟨1, _⟩ => rfl)
  rw [val_main_v48_apply, val_main_v47_apply]
  unfold proj
  refine Finset.sum_congr rfl fun c _ => ?_
  rw [el c, er c]

/-! ## From the five stages to the merge -/

/-- A block of L rows as a stack indexed by the naturals: zero past the block. -/
def rowsOf (L : ℕ) (Z : Fin L → Fin 128 → EReal) : ℕ → Fin 128 → EReal :=
  fun r d => if h : r < L then Z ⟨r, h⟩ d else 0

theorem rowsOf_lt (L : ℕ) (Z : Fin L → Fin 128 → EReal) (r : ℕ) (h : r < L) : rowsOf L Z r = Z ⟨r, h⟩ := by
  funext d; unfold rowsOf; rw [dif_pos h]

/-- A stage of a block of 2L rows, at a row below L, reads the block's rows 2r and 2r+1. -/
theorem stage_rowsOf (W : Fin 256 → Fin 128 → EReal) (L2 L : ℕ) (hL : L2 = 2 * L) (Z : Fin L2 → Fin 128 → EReal)
    (r : ℕ) (hr : r < L) (o : Fin 128) :
    stage W (rowsOf L2 Z) r o
      = silu (∑ c : Fin 256, Z ⟨2 * r + c.val / 128, by have := c.isLt; omega⟩ (lane c) * W c o) := by
  unfold stage
  congr 1
  refine Finset.sum_congr rfl fun c _ => ?_
  rw [rowsOf_lt L2 Z _ (by have := c.isLt; omega)]

/-- Five blocks, each the stage of the one before, end in the merge of the first. -/
theorem merge_chain (W : Fin 5 → Fin 256 → Fin 128 → EReal)
    (Z0 : Fin 32 → Fin 128 → EReal) (Z1 : Fin 16 → Fin 128 → EReal) (Z2 : Fin 8 → Fin 128 → EReal)
    (Z3 : Fin 4 → Fin 128 → EReal) (Z4 : Fin 2 → Fin 128 → EReal) (Z5 : Fin 1 → Fin 128 → EReal)
    (h1 : ∀ r : Fin 16, Z1 r = stage (W 0) (rowsOf 32 Z0) r.val)
    (h2 : ∀ r : Fin 8, Z2 r = stage (W 1) (rowsOf 16 Z1) r.val)
    (h3 : ∀ r : Fin 4, Z3 r = stage (W 2) (rowsOf 8 Z2) r.val)
    (h4 : ∀ r : Fin 2, Z4 r = stage (W 3) (rowsOf 4 Z3) r.val)
    (h5 : ∀ r : Fin 1, Z5 r = stage (W 4) (rowsOf 2 Z4) r.val) :
    Z5 0 = phi W (rowsOf 32 Z0) := by
  have e1 : ∀ r, r < 2 * 8 → rowsOf 16 Z1 r = stage (W 0) (rowsOf 32 Z0) r := fun r hr => by
    rw [rowsOf_lt 16 Z1 r (by omega)]; exact h1 ⟨r, by omega⟩
  have e2 : ∀ r, r < 2 * 4 → rowsOf 8 Z2 r = stage (W 1) (stage (W 0) (rowsOf 32 Z0)) r := fun r hr => by
    rw [rowsOf_lt 8 Z2 r (by omega), h2 ⟨r, by omega⟩]; exact stage_congr (W 1) e1 r (by omega)
  have e3 : ∀ r, r < 2 * 2 → rowsOf 4 Z3 r = stage (W 2) (stage (W 1) (stage (W 0) (rowsOf 32 Z0))) r := fun r hr => by
    rw [rowsOf_lt 4 Z3 r (by omega), h3 ⟨r, by omega⟩]; exact stage_congr (W 2) e2 r (by omega)
  have e4 : ∀ r, r < 2 * 1 → rowsOf 2 Z4 r = S4 W (rowsOf 32 Z0) r := fun r hr => by
    rw [rowsOf_lt 2 Z4 r (by omega), h4 ⟨r, by omega⟩]; exact stage_congr (W 3) e3 r (by omega)
  rw [h5 0]
  exact stage_congr (W 4) e4 0 (by omega)

/-- The single row the reference's five stages leave for window w is the merge of that window's 32 rows. -/
theorem merged_read (x0 : (⟨S2x16x8192x128, .f32⟩ : BufTy).Contents (Elt Ideal)) (x1 : (⟨S32x128, .f32⟩ : BufTy).Contents (Elt Ideal))
    (x2 : (⟨S5x128x256, .f32⟩ : BufTy).Contents (Elt Ideal))
    (b : Fin 2) (h : Fin 16) (w : Fin 512) :
    (fun c => val_main_v46 (F := Ideal) x0 x1 x2 (ix5 b h w (0 : Fin 1) c))
      = phi (wdT x2) (rowsOf 32 (fun r d => val_main_v21 (F := Ideal) x0 x1 (ix5 b h w r d))) :=
  merge_chain (wdT x2)
    (fun r d => val_main_v21 (F := Ideal) x0 x1 (ix5 b h w r d))
    (fun r d => val_main_v26 (F := Ideal) x0 x1 x2 (ix5 b h w r d))
    (fun r d => val_main_v31 (F := Ideal) x0 x1 x2 (ix5 b h w r d))
    (fun r d => val_main_v36 (F := Ideal) x0 x1 x2 (ix5 b h w r d))
    (fun r d => val_main_v41 (F := Ideal) x0 x1 x2 (ix5 b h w r d))
    (fun r d => val_main_v46 (F := Ideal) x0 x1 x2 (ix5 b h w r d))
    (fun r => funext fun o => by rw [stage_rowsOf _ 32 16 rfl _ r.val r.isLt o]; exact stage0_read x0 x1 x2 b h w r o)
    (fun r => funext fun o => by rw [stage_rowsOf _ 16 8 rfl _ r.val r.isLt o]; exact stage1_read x0 x1 x2 b h w r o)
    (fun r => funext fun o => by rw [stage_rowsOf _ 8 4 rfl _ r.val r.isLt o]; exact stage2_read x0 x1 x2 b h w r o)
    (fun r => funext fun o => by rw [stage_rowsOf _ 4 2 rfl _ r.val r.isLt o]; exact stage3_read x0 x1 x2 b h w r o)
    (fun r => funext fun o => by rw [stage_rowsOf _ 2 1 rfl _ r.val r.isLt o]; exact stage4_read x0 x1 x2 b h w r o)

/-! ## The reference is the shared function -/

theorem ref_eq (x0 : (⟨S2x16x8192x128, .f32⟩ : BufTy).Contents (Elt Ideal)) (x1 : (⟨S32x128, .f32⟩ : BufTy).Contents (Elt Ideal))
    (x2 : (⟨S5x128x256, .f32⟩ : BufTy).Contents (Elt Ideal)) (x3 : (⟨S128x128, .f32⟩ : BufTy).Contents (Elt Ideal)) :
    (val_main_v48 (F := Ideal) x0 x1 x2 x3 : S2x16x512x128.Idx → EReal) = G x0 x1 x2 x3 := by
  funext j
  obtain ⟨b, h, w, o, rfl⟩ : ∃ (b : Fin 2) (h : Fin 16) (w : Fin 512) (o : Fin 128), j = ix4 b h w o :=
    ⟨j 0, j 1, j 2, j 3, eq_ix4 j⟩
  rw [proj_read, merged_read]
  show proj (wsT x3) (phi (wdT x2) (rowsOf 32 (fun r d => val_main_v21 (F := Ideal) x0 x1 (ix5 b h w r d)))) o
    = if w.val = 0 then 0 else proj (wsT x3) (phi (wdT x2) (win x0 x1 b h (w.val - 1))) o
  by_cases hw : w.val = 0
  · -- window 0: every row is zero, so the merge and its projection are
    obtain rfl : w = (0 : Fin 512) := Fin.ext hw
    rw [if_pos hw, phi_zero (wdT x2) _ (fun r => by
      funext d
      unfold rowsOf
      split
      · exact window_zero x0 x1 b h _ d
      · rfl), proj_zero]
    rfl
  · -- window w ≥ 1: its rows are key window w − 1 plus the positional table
    rw [if_neg hw]
    have hwl := w.isLt
    obtain ⟨v, rfl⟩ : ∃ v : Fin 511, w = (⟨v.val + 1, Nat.succ_lt_succ v.isLt⟩ : Fin 512) :=
      ⟨⟨w.val - 1, by omega⟩, Fin.ext (by show w.val = w.val - 1 + 1; omega)⟩
    have hrows : rowsOf 32 (fun r d => val_main_v21 (F := Ideal) x0 x1 (ix5 b h (⟨v.val + 1, by have := v.isLt; omega⟩ : Fin 512) r d))
        = win x0 x1 b h (v.val + 1 - 1) := by
      funext r d
      have hv := v.isLt
      unfold rowsOf win
      by_cases hr : r < 32
      · rw [dif_pos hr, dif_pos ⟨by omega, hr⟩]
        beta_reduce
        rw [window_succ x0 x1 b h v ⟨r, hr⟩ d]
        simp only [Nat.add_sub_cancel]
      · rw [dif_neg hr, dif_neg (fun hh => hr hh.2)]
    rw [hrows]

end Cert.ReferenceIdeal.RefValue

end
-- ==== Proof.LibPlainMatmul.lean ====
/-
  Two general facts about plain row-by-column products and about pairing rows, at the extended reals.

  `matmul_plain_apply`: a matrix product with the plain dimension numbers (M × K by K × N, contracting the left
  operand's columns with the right operand's rows) into a zero accumulator is, at entry (p, q), the sum over k of
  l[p, k] · r[k, q].

  `shapeCast_pairRows_apply`: viewing an array of N = 2·N2 rows of 128 entries as N2 rows of 256 entries puts rows
  2r and 2r+1 side by side: entry (r, c) of the view is entry (2r + c / 128, c mod 128) of the array, both having
  row-major position 256·r + c.
-/
import Idealize.ShloMosaic.PureOps.Ideal.Laws
import Idealize.ShloMosaic.Lib.ValueIdx
import Idealize.ShloMosaic.Lib.Pipeline.Value

noncomputable section

namespace Cert.LibPlainMatmul

open Idealize.ShloMosaic Idealize.ShloMosaic.ValueIdx

variable {M K N : ℕ}

/-- The left operand's index at output index j and contraction index k: row j 0 … -/
theorem plain_lhs_0 (j : (⟨2, ![M, N]⟩ : Shape).Idx) (k : (DotDims.plain M K N).contr.Idx) :
    ((DotDims.plain M K N).lhsIdx j k 0).val = (j 0).val := rfl

/-- … and column k. -/
theorem plain_lhs_1 (j : (⟨2, ![M, N]⟩ : Shape).Idx) (k : (DotDims.plain M K N).contr.Idx) :
    ((DotDims.plain M K N).lhsIdx j k 1).val = (k ⟨0, Nat.one_pos⟩).val := rfl

/-- The right operand's index: row k … -/
theorem plain_rhs_0 (j : (⟨2, ![M, N]⟩ : Shape).Idx) (k : (DotDims.plain M K N).contr.Idx) :
    ((DotDims.plain M K N).rhsIdx j k 0).val = (k ⟨0, Nat.one_pos⟩).val := rfl

/-- … and column j 1. -/
theorem plain_rhs_1 (j : (⟨2, ![M, N]⟩ : Shape).Idx) (k : (DotDims.plain M K N).contr.Idx) :
    ((DotDims.plain M K N).rhsIdx j k 1).val = (j 1).val := rfl

/-- A plain product into a zero accumulator, at entry (p, q), is ∑ k, l[p, k] · r[k, q]. -/
theorem matmul_plain_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

/-- Rows paired: entry (r, c) of the [N2, 256] view of an [N, 128] array, N = 2·N2, is entry
    (2r + c / 128, c mod 128). -/
theorem shapeCast_pairRows_apply {α : Type} {Nr N2 : ℕ} (hN : Nr = 2 * N2) (v : (⟨2, ![Nr, 128]⟩ : Shape).Idx → α)
    (h : (⟨2, ![Nr, 128]⟩ : Shape).ShapeCasts ⟨2, ![N2, 256]⟩) (r : Fin N2) (c : Fin 256) :
    shapeCast ⟨2, ![N2, 256]⟩ v h (ix2 r c)
      = v (ix2 ⟨2 * r.val + c.val / 128, by have := r.isLt; have := c.isLt; omega⟩ ⟨c.val % 128, Nat.mod_lt _ (by decide)⟩) := by
  refine shapeCast_apply v h (ix2 r c) _ ?_
  rw [Shape.rowMajor_val_two, Shape.rowMajor_val_two]
  show (2 * r.val + c.val / 128) * 128 + c.val % 128 = r.val * 256 + c.val
  have := c.isLt
  omega

end Cert.LibPlainMatmul

end
-- ==== Proof.lean ====
/-
  The kernel computes, for each of 32 batch-heads, the sliding-window compression of 8192 key rows: 511 windows of 32
  rows at stride 16, each plus a positional table, merged pairwise through five bias-free linear stages with silu and
  projected once more; a zero window is put in front. The reference gathers the 511 overlapping windows, prepends an
  all-zero window and runs the same five stages and projection on all 512.

  The kernel never forms the overlapping windows. Since the stride is half a window, window i is half-block i followed
  by half-block i + 1 (half-blocks of 16 rows), and the first four stages never mix the two halves: it stacks all
  "low" halves on top of all "high" halves, runs four stages on the stack, and only then lays low and high results
  side by side for the fifth stage. A merge stage reads rows 2r and 2r+1 to make row r, so four stages at row A of
  any stack are the four stages of its 16-row group A alone (Proof/Merge.lean): the stacked computation and the
  window-by-window one agree. The zero window merges to zero because every stage is linear without bias and
  silu 0 = 0, which is the kernel's stored zero row. Format changes are the identity on the extended reals, the
  kernel's logistic is the reference's 1 / (1 + e^(-y)), and both matrix products are the same finite sums; no
  algebraic law beyond regrouping is used, so the finiteness of the inputs is never needed.

  Proof/Merge.lean states the result as one function G of the four argument arrays; Proof/KernelBlock.lean reads the
  kernel body's stored block, Proof/KernelArray.lean the whole output array and the host reshape after the region;
  Proof/RefMerge.lean reads the reference's run. Both runs end at G of arguments that agree.
-/
import proofs.«418411_j86174223827251_3_alg».proof.Defs
import proofs.«418411_j86174223827251_3_alg».proof.Proof.Gen.Kernel
import proofs.«418411_j86174223827251_3_alg».proof.Proof.Gen.Kernel.Skeleton
import proofs.«418411_j86174223827251_3_alg».proof.Proof.Gen.Kernel.Launch
import proofs.«418411_j86174223827251_3_alg».proof.Proof.Gen.Kernel.Points
import proofs.«418411_j86174223827251_3_alg».proof.Proof.Gen.Kernel.Frame
import proofs.«418411_j86174223827251_3_alg».proof.Proof.Gen.KernelIdeal
import proofs.«418411_j86174223827251_3_alg».proof.Proof.Gen.KernelIdeal.Skeleton
import proofs.«418411_j86174223827251_3_alg».proof.Proof.Gen.KernelIdeal.Launch
import proofs.«418411_j86174223827251_3_alg».proof.Proof.Gen.KernelIdeal.Points
import proofs.«418411_j86174223827251_3_alg».proof.Proof.Gen.KernelIdeal.Frame
import proofs.«418411_j86174223827251_3_alg».proof.Proof.Gen.ReferenceIdeal
import proofs.«418411_j86174223827251_3_alg».proof.Proof.Gen.ReferenceIdeal.Run
import proofs.«418411_j86174223827251_3_alg».proof.Proof.Gen.ReferenceIdeal.Read
import proofs.«418411_j86174223827251_3_alg».proof.Proof.Gen.Pre_finite_inputs
import proofs.«418411_j86174223827251_3_alg».proof.Proof.KernelArray
import proofs.«418411_j86174223827251_3_alg».proof.Proof.RefMerge
import proofs.«418411_j86174223827251_3_alg».proof.Proof.LibPlainMatmul
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the four arguments, end with the result buffer at the one function G
    of those arguments. -/
theorem algebraic : Cert.algebraic_KernelIdeal_ReferenceIdeal := by
  intro m ρ m' ρ' _ hagree
  refine ⟨fun c => Cert.Merge.G (Cert.KernelIdeal.ArrayValue.argK m c) (Cert.KernelIdeal.ArrayValue.argPe m c)
    (Cert.KernelIdeal.ArrayValue.argWd m c) (Cert.KernelIdeal.ArrayValue.argWs m c), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.RefValue.ref_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
